-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x112x112x256 : Shape := ⟨4, ![8, 112, 112, 256]⟩
abbrev S_ : Shape := ⟨0, ![]⟩

class Facts : Prop where
  bcast_S_S8x112x112x256 : S_.BroadcastsInDim S8x112x112x256 (![] : Fin 0 → Fin S8x112x112x256.rank)
  reducesTo_S8x112x112x256_S_d0_1_2_3 : S8x112x112x256.ReducesTo [0, 1, 2, 3] S_
  h_S_ : 0 < S_.numel

variable [Facts]

def fn_part1 {F : FTy → Type} [FloatOps F] (main_arg1 : IVec S8x112x112x256 32) (main_v3 : IVec S_ 1) (main_v14 : IVec S8x112x112x256 32) (main_v15 : IVec S8x112x112x256 1) (main_v16 : IVec S8x112x112x256 32) : IVec S_ 1 :=
  let main_v17 : IVec S8x112x112x256 32 := addi main_v14 main_v16
  let main_v18 : IVec S8x112x112x256 1 := cmpi .slt main_arg1 main_v17
  let main_v19 : IVec S8x112x112x256 1 := andi main_v15 main_v18
  let main_c_5 : IVec S_ 32 := constantI S_ 32 57344#32
  let main_v20 : IVec S8x112x112x256 32 := broadcastInDim S8x112x112x256 ![] bcast_S_S8x112x112x256 main_c_5
  let main_v21 : IVec S8x112x112x256 32 := addi main_v14 main_v20
  let main_v22 : IVec S8x112x112x256 1 := cmpi .sge main_arg1 main_v21
  let main_c_6 : IVec S_ 32 := constantI S_ 32 57856#32
  let main_v23 : IVec S8x112x112x256 32 := broadcastInDim S8x112x112x256 ![] bcast_S_S8x112x112x256 main_c_6
  let main_v24 : IVec S8x112x112x256 32 := addi main_v14 main_v23
  let main_v25 : IVec S8x112x112x256 1 := cmpi .slt main_arg1 main_v24
  let main_v26 : IVec S8x112x112x256 1 := andi main_v22 main_v25
  let main_v27 : IVec S8x112x112x256 1 := ori main_v19 main_v26
  let main_c_7 : IVec S_ 1 := constantI S_ 1 1#1
  let main_v28 : IVec S_ 1 := (fun x v => Host.reduce IntOp.andi x v reducesTo_S8x112x112x256_S_d0_1_2_3 h_S_) main_v27 main_c_7
  let main_v29 : IVec S_ 1 := andi main_v3 main_v28
  main_v29

def fn {F : FTy → Type} [FloatOps F] (main_arg0 : FVec F S8x112x112x256 .f32) (main_arg1 : IVec S8x112x112x256 32) : IVec S_ 1 :=
  let main_v0 : FVec F S8x112x112x256 .f32 := Host.absf main_arg0
  let main_cst : FVec F S_ .f32 := constant S_ .f32 0x7F800000#32
  let main_v1 : FVec F S8x112x112x256 .f32 := broadcastInDim S8x112x112x256 ![] bcast_S_S8x112x112x256 main_cst
  let main_v2 : IVec S8x112x112x256 1 := cmpf .olt main_v0 main_v1
  let main_c : IVec S_ 1 := constantI S_ 1 1#1
  let main_v3 : IVec S_ 1 := (fun x v => Host.reduce IntOp.andi x v reducesTo_S8x112x112x256_S_d0_1_2_3 h_S_) main_v2 main_c
  let main_v4 : IVec S8x112x112x256 32 := iotaInDim S8x112x112x256 32 1
  let main_v5 : IVec S8x112x112x256 32 := iotaInDim S8x112x112x256 32 2
  let main_c_0 : IVec S_ 32 := constantI S_ 32 2#32
  let main_v6 : IVec S8x112x112x256 32 := broadcastInDim S8x112x112x256 ![] bcast_S_S8x112x112x256 main_c_0
  let main_v7 : IVec S8x112x112x256 32 := muli main_v6 main_v4
  let main_c_1 : IVec S_ 32 := constantI S_ 32 224#32
  let main_v8 : IVec S8x112x112x256 32 := broadcastInDim S8x112x112x256 ![] bcast_S_S8x112x112x256 main_c_1
  let main_v9 : IVec S8x112x112x256 32 := muli main_v7 main_v8
  let main_c_2 : IVec S_ 32 := constantI S_ 32 2#32
  let main_v10 : IVec S8x112x112x256 32 := broadcastInDim S8x112x112x256 ![] bcast_S_S8x112x112x256 main_c_2
  let main_v11 : IVec S8x112x112x256 32 := muli main_v10 main_v5
  let main_v12 : IVec S8x112x112x256 32 := addi main_v9 main_v11
  let main_c_3 : IVec S_ 32 := constantI S_ 32 256#32
  let main_v13 : IVec S8x112x112x256 32 := broadcastInDim S8x112x112x256 ![] bcast_S_S8x112x112x256 main_c_3
  let main_v14 : IVec S8x112x112x256 32 := muli main_v12 main_v13
  let main_v15 : IVec S8x112x112x256 1 := cmpi .sge main_arg1 main_v14
  let main_c_4 : IVec S_ 32 := constantI S_ 32 512#32
  let main_v16 : IVec S8x112x112x256 32 := broadcastInDim S8x112x112x256 ![] bcast_S_S8x112x112x256 main_c_4
  fn_part1 (F := F) main_arg1 main_v3 main_v14 main_v15 main_v16
-- ==== Kernel.lean ====
abbrev S8x112x112x256 : Shape := ⟨4, ![8, 112, 112, 256]⟩
abbrev S8x112x2x112x512 : Shape := ⟨5, ![8, 112, 2, 112, 512]⟩
abbrev S1x16x112x256 : Shape := ⟨4, ![1, 16, 112, 256]⟩
abbrev S1x16x2x112x512 : Shape := ⟨5, ![1, 16, 2, 112, 512]⟩
abbrev S16x112x256 : Shape := ⟨3, ![16, 112, 256]⟩
abbrev S16x112x512 : Shape := ⟨3, ![16, 112, 512]⟩
abbrev S1x16x1x112x512 : Shape := ⟨5, ![1, 16, 1, 112, 512]⟩
abbrev S8x224x224x256 : Shape := ⟨4, ![8, 224, 224, 256]⟩

abbrev nBuf : Space → Nat
  | .hbm => 4
  | .vmem => 6
  | .smem => 0
  | _ => 0

abbrev bufTy : (tb : Table) → Fin (tcTables nBuf tb) → BufTy
  | .hbm, ⟨0, _⟩ => ⟨S8x112x112x256, .f32⟩
  | .hbm, ⟨1, _⟩ => ⟨S8x112x112x256, .i32⟩
  | .hbm, ⟨2, _⟩ => ⟨S8x112x2x112x512, .f32⟩
  | .hbm, ⟨3, _⟩ => ⟨S8x224x224x256, .f32⟩
  | .local _ .vmem, ⟨0, _⟩ => ⟨S1x16x112x256, .f32⟩
  | .local _ .vmem, ⟨1, _⟩ => ⟨S1x16x112x256, .f32⟩
  | .local _ .vmem, ⟨2, _⟩ => ⟨S1x16x112x256, .i32⟩
  | .local _ .vmem, ⟨3, _⟩ => ⟨S1x16x112x256, .i32⟩
  | .local _ .vmem, ⟨4, _⟩ => ⟨S1x16x2x112x512, .f32⟩
  | .local _ .vmem, ⟨5, _⟩ => ⟨S1x16x2x112x512, .f32⟩
  | _, _ => ⟨S8x112x112x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x16x112x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x112x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x2x112x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x16x112x256_S1x16x112x256_0_0_0_0 : ∀ a, (![0, 0, 0, 0] : Fin 4 → Nat) a + S1x16x112x256.size a ≤ S1x16x112x256.size a
  h_S1x16x112x256 : 0 < S1x16x112x256.numel
  shapeCasts_S1x16x112x256_S16x112x256 : S1x16x112x256.ShapeCasts S16x112x256
  natLt_1_32 : 1 < 32
  concatenates_S16x112x256_S16x112x256_S16x112x512_d2 : Shape.Concatenates [S16x112x256, S16x112x256] S16x112x512 2
  inb_S1x16x2x112x512_S1x16x1x112x512_0_0_0_0_0 : ∀ a, (![0, 0, 0, 0, 0] : Fin 5 → Nat) a + S1x16x1x112x512.size a ≤ S1x16x2x112x512.size a
  h_S1x16x1x112x512 : 0 < S1x16x1x112x512.numel
  shapeCasts_S1x16x1x112x512_S16x112x512 : S1x16x1x112x512.ShapeCasts S16x112x512
  shapeCasts_S16x112x512_S1x16x1x112x512 : S16x112x512.ShapeCasts S1x16x1x112x512
  inb_S1x16x2x112x512_S1x16x1x112x512_0_0_1_0_0 : ∀ a, (![0, 0, 1, 0, 0] : Fin 5 → Nat) a + S1x16x1x112x512.size a ≤ S1x16x2x112x512.size a
  shapeCasts_S8x112x2x112x512_S8x224x224x256 : S8x112x2x112x512.ShapeCasts S8x224x224x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x112x256.size a ≤ S8x112x112x256.size a
  hwx0_0 : ∀ i : grid0.Coords, EltTy.bits .f32 = 32 ∨ (Rect.block (s := S8x112x112x256) S1x16x112x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x112x256.size a ≤ S8x112x112x256.size a
  hwx0_1 : ∀ i : grid0.Coords, EltTy.bits .i32 = 32 ∨ (Rect.block (s := S8x112x112x256) S1x16x112x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x2x112x512.size a ≤ S8x112x2x112x512.size a
  hwx0_2 : ∀ i : grid0.Coords, EltTy.bits .f32 = 32 ∨ (Rect.block (s := S8x112x2x112x512) S1x16x2x112x512.size (cc0_transform_2 i) (hinb0_2 i)).WholeWords (EltTy.packing .f32)

variable [Facts₀]

abbrev win0_0 : Pipeline.Window sig grid0 :=
  Pipeline.Window.ofSpec (Memref.whole main_arg0) S1x16x112x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x112x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x2x112x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x112x112x256 : Shape := ⟨4, ![8, 112, 112, 256]⟩
abbrev S_ : Shape := ⟨0, ![]⟩
abbrev S8 : Shape := ⟨1, ![8]⟩
abbrev S8x1x1x1 : Shape := ⟨4, ![8, 1, 1, 1]⟩
abbrev S256 : Shape := ⟨1, ![256]⟩
abbrev S1x1x1x256 : Shape := ⟨4, ![1, 1, 1, 256]⟩
abbrev S8x224x224x256 : Shape := ⟨4, ![8, 224, 224, 256]⟩
abbrev S8x112x112x256x1 : Shape := ⟨5, ![8, 112, 112, 256, 1]⟩
abbrev S8x112x112x256x4 : Shape := ⟨5, ![8, 112, 112, 256, 4]⟩

abbrev nBuf : Space → Nat
  | .hbm => 102
  | .vmem => 0
  | .smem => 0
  | _ => 0

abbrev bufTy : (tb : Table) → Fin (tcTables nBuf tb) → BufTy
  | .hbm, ⟨0, _⟩ => ⟨S8x112x112x256, .f32⟩
  | .hbm, ⟨1, _⟩ => ⟨S8x112x112x256, .i32⟩
  | .hbm, ⟨2, _⟩ => ⟨S_, .i32⟩
  | .hbm, ⟨3, _⟩ => ⟨S_, .i32⟩
  | .hbm, ⟨4, _⟩ => ⟨S8x112x112x256, .i32⟩
  | .hbm, ⟨5, _⟩ => ⟨S8x112x112x256, .i32⟩
  | .hbm, ⟨6, _⟩ => ⟨S8x112x112x256, .i32⟩
  | .hbm, ⟨7, _⟩ => ⟨S_, .i32⟩
  | .hbm, ⟨8, _⟩ => ⟨S8x112x112x256, .i32⟩
  | .hbm, ⟨9, _⟩ => ⟨S8x112x112x256, .i1⟩
  | .hbm, ⟨10, _⟩ => ⟨S8x112x112x256, .i32⟩
  | .hbm, ⟨11, _⟩ => ⟨S8x112x112x256, .i32⟩
  | .hbm, ⟨12, _⟩ => ⟨S_, .i32⟩
  | .hbm, ⟨13, _⟩ => ⟨S8x112x112x256, .i32⟩
  | .hbm, ⟨14, _⟩ => ⟨S8x112x112x256, .i1⟩
  | .hbm, ⟨15, _⟩ => ⟨S8x112x112x256, .i1⟩
  | .hbm, ⟨16, _⟩ => ⟨S_, .i32⟩
  | .hbm, ⟨17, _⟩ => ⟨S8x112x112x256, .i32⟩
  | .hbm, ⟨18, _⟩ => ⟨S8x112x112x256, .i32⟩
  | .hbm, ⟨19, _⟩ => ⟨S8x112x112x256, .i32⟩
  | .hbm, ⟨20, _⟩ => ⟨S_, .i32⟩
  | .hbm, ⟨21, _⟩ => ⟨S_, .i32⟩
  | .hbm, ⟨22, _⟩ => ⟨S8x112x112x256, .i32⟩
  | .hbm, ⟨23, _⟩ => ⟨S8x112x112x256, .i32⟩
  | .hbm, ⟨24, _⟩ => ⟨S8x112x112x256, .i32⟩
  | .hbm, ⟨25, _⟩ => ⟨S_, .i32⟩
  | .hbm, ⟨26, _⟩ => ⟨S8x112x112x256, .i32⟩
  | .hbm, ⟨27, _⟩ => ⟨S8x112x112x256, .i1⟩
  | .hbm, ⟨28, _⟩ => ⟨S8x112x112x256, .i32⟩
  | .hbm, ⟨29, _⟩ => ⟨S8x112x112x256, .i32⟩
  | .hbm, ⟨30, _⟩ => ⟨S_, .i32⟩
  | .hbm, ⟨31, _⟩ => ⟨S8x112x112x256, .i32⟩
  | .hbm, ⟨32, _⟩ => ⟨S8x112x112x256, .i1⟩
  | .hbm, ⟨33, _⟩ => ⟨S8x112x112x256, .i1⟩
  | .hbm, ⟨34, _⟩ => ⟨S_, .i32⟩
  | .hbm, ⟨35, _⟩ => ⟨S8x112x112x256, .i32⟩
  | .hbm, ⟨36, _⟩ => ⟨S8x112x112x256, .i32⟩
  | .hbm, ⟨37, _⟩ => ⟨S8x112x112x256, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S8x112x112x256, .i32⟩
  | .hbm, ⟨45, _⟩ => ⟨S8x112x112x256, .i32⟩
  | .hbm, ⟨46, _⟩ => ⟨S_, .i32⟩
  | .hbm, ⟨47, _⟩ => ⟨S8x112x112x256, .i32⟩
  | .hbm, ⟨48, _⟩ => ⟨S8x112x112x256, .i1⟩
  | .hbm, ⟨49, _⟩ => ⟨S_, .i32⟩
  | .hbm, ⟨50, _⟩ => ⟨S8x112x112x256, .i32⟩
  | .hbm, ⟨51, _⟩ => ⟨S8x112x112x256, .i1⟩
  | .hbm, ⟨52, _⟩ => ⟨S_, .i32⟩
  | .hbm, ⟨53, _⟩ => ⟨S_, .i1⟩
  | .hbm, ⟨54, _⟩ => ⟨S8x112x112x256, .i1⟩
  | .hbm, ⟨55, _⟩ => ⟨S8x112x112x256, .i1⟩
  | .hbm, ⟨56, _⟩ => ⟨S8x112x112x256, .i1⟩
  | .hbm, ⟨57, _⟩ => ⟨S8x112x112x256, .i32⟩
  | .hbm, ⟨58, _⟩ => ⟨S8x112x112x256, .i32⟩
  | .hbm, ⟨59, _⟩ => ⟨S8x112x112x256, .i32⟩
  | .hbm, ⟨60, _⟩ => ⟨S8, .i32⟩
  | .hbm, ⟨61, _⟩ => ⟨S8x1x1x1, .i32⟩
  | .hbm, ⟨62, _⟩ => ⟨S256, .i32⟩
  | .hbm, ⟨63, _⟩ => ⟨S1x1x1x256, .i32⟩
  | .hbm, ⟨64, _⟩ => ⟨S_, .f32⟩
  | .hbm, ⟨65, _⟩ => ⟨S8x224x224x256, .f32⟩
  | .hbm, ⟨66, _⟩ => ⟨S_, .i32⟩
  | .hbm, ⟨67, _⟩ => ⟨S8x1x1x1, .i32⟩
  | .hbm, ⟨68, _⟩ => ⟨S8x1x1x1, .i1⟩
  | .hbm, ⟨69, _⟩ => ⟨S_, .i32⟩
  | .hbm, ⟨70, _⟩ => ⟨S8x1x1x1, .i32⟩
  | .hbm, ⟨71, _⟩ => ⟨S8x1x1x1, .i32⟩
  | .hbm, ⟨72, _⟩ => ⟨S8x1x1x1, .i32⟩
  | .hbm, ⟨73, _⟩ => ⟨S_, .i32⟩
  | .hbm, ⟨74, _⟩ => ⟨S8x112x112x256, .i32⟩
  | .hbm, ⟨75, _⟩ => ⟨S8x112x112x256, .i1⟩
  | .hbm, ⟨76, _⟩ => ⟨S_, .i32⟩
  | .hbm, ⟨77, _⟩ => ⟨S8x112x112x256, .i32⟩
  | .hbm, ⟨78, _⟩ => ⟨S8x112x112x256, .i32⟩
  | .hbm, ⟨79, _⟩ => ⟨S8x112x112x256, .i32⟩
  | .hbm, ⟨80, _⟩ => ⟨S_, .i32⟩
  | .hbm, ⟨81, _⟩ => ⟨S8x112x112x256, .i32⟩
  | .hbm, ⟨82, _⟩ => ⟨S8x112x112x256, .i1⟩
  | .hbm, ⟨83, _⟩ => ⟨S_, .i32⟩
  | .hbm, ⟨84, _⟩ => ⟨S8x112x112x256, .i32⟩
  | .hbm, ⟨85, _⟩ => ⟨S8x112x112x256, .i32⟩
  | .hbm, ⟨86, _⟩ => ⟨S8x112x112x256, .i32⟩
  | .hbm, ⟨87, _⟩ => ⟨S_, .i32⟩
  | .hbm, ⟨88, _⟩ => ⟨S1x1x1x256, .i32⟩
  | .hbm, ⟨89, _⟩ => ⟨S1x1x1x256, .i1⟩
  | .hbm, ⟨90, _⟩ => ⟨S_, .i32⟩
  | .hbm, ⟨91, _⟩ => ⟨S1x1x1x256, .i32⟩
  | .hbm, ⟨92, _⟩ => ⟨S1x1x1x256, .i32⟩
  | .hbm, ⟨93, _⟩ => ⟨S1x1x1x256, .i32⟩
  | .hbm, ⟨94, _⟩ => ⟨S8x112x112x256, .i32⟩
  | .hbm, ⟨95, _⟩ => ⟨S8x112x112x256, .i32⟩
  | .hbm, ⟨96, _⟩ => ⟨S8x112x112x256x1, .i32⟩
  | .hbm, ⟨97, _⟩ => ⟨S8x112x112x256x1, .i32⟩
  | .hbm, ⟨98, _⟩ => ⟨S8x112x112x256x1, .i32⟩
  | .hbm, ⟨99, _⟩ => ⟨S8x112x112x256x1, .i32⟩
  | .hbm, ⟨100, _⟩ => ⟨S8x112x112x256x4, .i32⟩
  | .hbm, ⟨101, _⟩ => ⟨S8x224x224x256, .f32⟩
  | _, _ => ⟨S8x112x112x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_c : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_0 : Ref sig .tc := ⟨.hbm, 34, rfl⟩
abbrev main_call1_v12 : Ref sig .tc := ⟨.hbm, 35, rfl⟩
abbrev main_call1_v13 : Ref sig .tc := ⟨.hbm, 36, rfl⟩
abbrev main_v1 : Ref sig .tc := ⟨.hbm, 37, rfl⟩
abbrev main_c_1 : Ref sig .tc := ⟨.hbm, 38, rfl⟩
abbrev main_call2_v0 : Ref sig .tc := ⟨.hbm, 39, rfl⟩
abbrev main_call2_c : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_c_1 : Ref sig .tc := ⟨.hbm, 46, rfl⟩
abbrev main_call2_v5 : Ref sig .tc := ⟨.hbm, 47, rfl⟩
abbrev main_call2_v6 : Ref sig .tc := ⟨.hbm, 48, rfl⟩
abbrev main_call2_c_2 : Ref sig .tc := ⟨.hbm, 49, rfl⟩
abbrev main_call2_v7 : Ref sig .tc := ⟨.hbm, 50, rfl⟩
abbrev main_call2_v8 : Ref sig .tc := ⟨.hbm, 51, rfl⟩
abbrev main_call2_c_3 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_cst : Ref sig .tc := ⟨.hbm, 64, rfl⟩
abbrev main_v7 : Ref sig .tc := ⟨.hbm, 65, rfl⟩
abbrev main_c_2 : Ref sig .tc := ⟨.hbm, 66, rfl⟩
abbrev main_v8 : Ref sig .tc := ⟨.hbm, 67, rfl⟩
abbrev main_v9 : Ref sig .tc := ⟨.hbm, 68, rfl⟩
abbrev main_c_3 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_c_4 : Ref sig .tc := ⟨.hbm, 73, rfl⟩
abbrev main_v13 : Ref sig .tc := ⟨.hbm, 74, rfl⟩
abbrev main_v14 : Ref sig .tc := ⟨.hbm, 75, rfl⟩
abbrev main_c_5 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_c_6 : Ref sig .tc := ⟨.hbm, 80, rfl⟩
abbrev main_v18 : Ref sig .tc := ⟨.hbm, 81, rfl⟩
abbrev main_v19 : Ref sig .tc := ⟨.hbm, 82, rfl⟩
abbrev main_c_7 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_c_8 : Ref sig .tc := ⟨.hbm, 87, rfl⟩
abbrev main_v23 : Ref sig .tc := ⟨.hbm, 88, rfl⟩
abbrev main_v24 : Ref sig .tc := ⟨.hbm, 89, rfl⟩
abbrev main_c_9 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩

abbrev nD : Nat := 1
abbrev τ : Topo := Topo.v7x

variable {F : FTy → Type} [FloatOps F]

class Facts₀ : Prop where
  bcast_S_S8x112x112x256 : S_.BroadcastsInDim S8x112x112x256 (![] : Fin 0 → Fin S8x112x112x256.rank)
  bcast_S8_S8x1x1x1_0 : S8.BroadcastsInDim S8x1x1x1 (![0] : Fin 1 → Fin S8x1x1x1.rank)
  bcast_S256_S1x1x1x256_3 : S256.BroadcastsInDim S1x1x1x256 (![3] : Fin 1 → Fin S1x1x1x256.rank)
  bcast_S_S8x224x224x256 : S_.BroadcastsInDim S8x224x224x256 (![] : Fin 0 → Fin S8x224x224x256.rank)
  bcast_S_S8x1x1x1 : S_.BroadcastsInDim S8x1x1x1 (![] : Fin 0 → Fin S8x1x1x1.rank)
  bcast_S_S1x1x1x256 : S_.BroadcastsInDim S1x1x1x256 (![] : Fin 0 → Fin S1x1x1x256.rank)
  bcast_S8x1x1x1_S8x112x112x256_0_1_2_3 : S8x1x1x1.BroadcastsInDim S8x112x112x256 (![0, 1, 2, 3] : Fin 4 → Fin S8x112x112x256.rank)
  bcast_S1x1x1x256_S8x112x112x256_0_1_2_3 : S1x1x1x256.BroadcastsInDim S8x112x112x256 (![0, 1, 2, 3] : Fin 4 → Fin S8x112x112x256.rank)
  bcast_S8x112x112x256_S8x112x112x256x1_0_1_2_3 : S8x112x112x256.BroadcastsInDim S8x112x112x256x1 (![0, 1, 2, 3] : Fin 4 → Fin S8x112x112x256x1.rank)
  concatenates_S8x112x112x256x1_S8x112x112x256x1_S8x112x112x256x1_S8x112x112x256x1_S8x112x112x256x4_d4 : Shape.Concatenates [S8x112x112x256x1, S8x112x112x256x1, S8x112x112x256x1, S8x112x112x256x1] S8x112x112x256x4 4
  scatter_S8x224x224x256_S8x112x112x256x4_S8x112x112x256_n_0123_0123_4_wf : ScatterDims.WF S8x224x224x256 S8x112x112x256x4 S8x112x112x256 [] [0, 1, 2, 3] [0, 1, 2, 3] 4

variable [Facts₀]

def scatter_S8x224x224x256_S8x112x112x256x4_S8x112x112x256_n_0123_0123_4 : ScatterDims S8x224x224x256 S8x112x112x256x4 S8x112x112x256 where
  updateWindowDims := []
  insertedWindowDims := [0, 1, 2, 3]
  scatterDimsToOperandDims := [0, 1, 2, 3]
  indexVectorDim := 4
  wf := scatter_S8x224x224x256_S8x112x112x256x4_S8x112x112x256_n_0123_0123_4_wf

class Facts : Prop extends Facts₀ where

variable [Facts]
-- ==== Proof.Spec.lean ====
/-
  Max-unpooling over 2x2 windows with stride 2, as ONE function of the argument arrays.

  The pooled array `upd` has shape [8, 112, 112, 256] (batch, row, column, channel) and the index array `mk` the same
  shape; entry (b, i, j, c) of `mk` is a flat index ((2i + dy) * 224 + (2j + dx)) * 256 + c' into one batch of the
  output [224, 224, 256], pointing at one of the four positions of the cell's own 2x2 window (`InWin`). The output
  position (b, Y, X, c) lies in the window of exactly one cell, (b, Y / 2, X / 2, c) (`srcOf`); it receives that
  cell's value when the cell's index word points at it (row parity Y % 2, column parity X % 2), and zero otherwise (`G`).
-/
import Idealize.ShloMosaic.PureOps.Ideal
import Idealize.ShloMosaic.Lib.ValueIdx

noncomputable section

namespace Cert.Unpool

open Idealize.ShloMosaic Idealize.ShloMosaic.ValueIdx

/-- The pooled shape: batch, row, column, channel. -/
abbrev SIn : Shape := ⟨4, ![8, 112, 112, 256]⟩
/-- The unpooled shape. -/
abbrev SOut : Shape := ⟨4, ![8, 224, 224, 256]⟩
/-- The unpooled shape with each window's row offset and column offset split off: batch, row, row offset, column,
    column offset times 256 plus channel. -/
abbrev SMid : Shape := ⟨5, ![8, 112, 2, 112, 512]⟩

/-- The row parity an index word encodes: the output row is the word divided by 224 * 256. -/
def rowBit (w : BitVec 32) : ℕ := w.toNat / 57344 % 2
/-- The column parity an index word encodes: the output column is the word divided by 256, modulo 224 (even). -/
def colBit (w : BitVec 32) : ℕ := w.toNat / 256 % 2

/-- The index word `w` of the cell at row `i`, column `j` points inside the cell's own window: it is
    ((2i + dy) * 224 + (2j + dx)) * 256 + c' with dy, dx ∈ {0, 1} and 0 ≤ c' < 256, read as a signed word. -/
def InWin (w : BitVec 32) (i j : ℕ) : Prop :=
  (((448 * i + 2 * j) * 256 : ℤ) ≤ w.toInt ∧ w.toInt < (448 * i + 2 * j) * 256 + 512) ∨
  (((448 * i + 2 * j) * 256 + 57344 : ℤ) ≤ w.toInt ∧ w.toInt < (448 * i + 2 * j) * 256 + 57856)

/-- Every index word points inside its own cell's window. -/
def MaskOk (mk : IVec SIn 32) : Prop := ∀ s : SIn.Idx, InWin (mk s) (s 1).val (s 2).val

/-- The cell whose window holds the output position `o`. -/
def srcOf (o : SOut.Idx) : SIn.Idx :=
  ix4 (n0 := 8) (n1 := 112) (n2 := 112) (n3 := 256) ⟨(o 0).val, (o 0).isLt⟩
    ⟨(o 1).val / 2, by have : (o 1).val < 224 := (o 1).isLt; omega⟩
    ⟨(o 2).val / 2, by have : (o 2).val < 224 := (o 2).isLt; omega⟩
    ⟨(o 3).val, (o 3).isLt⟩

/-- The unpooled array: each output position holds its cell's value when the cell's index word points at it, else zero. -/
def G (upd : SIn.Idx → EReal) (mk : IVec SIn 32) : SOut.Idx → EReal := fun o =>
  if rowBit (mk (srcOf o)) = (o 1).val % 2 ∧ colBit (mk (srcOf o)) = (o 2).val % 2 then upd (srcOf o) else 0

/-- The same array before the final row-major re-reading: position (b, i, p, j, q) of the five-axis form is output
    position (b, 2i + p, 2j + q / 256, q % 256). -/
def G5 (upd : SIn.Idx → EReal) (mk : IVec SIn 32) : SMid.Idx → EReal := fun y =>
  let s : SIn.Idx := ix4 (n0 := 8) (n1 := 112) (n2 := 112) (n3 := 256) ⟨(y 0).val, (y 0).isLt⟩ ⟨(y 1).val, (y 1).isLt⟩
    ⟨(y 3).val, (y 3).isLt⟩ ⟨(y 4).val % 256, Nat.mod_lt _ (by norm_num)⟩
  if rowBit (mk s) = (y 2).val ∧ colBit (mk s) = (y 4).val / 256 then upd s else 0

end Cert.Unpool

end
-- ==== Proof.PreDecode.lean ====
/-
  What the precondition says of the index array: every index word points inside its own cell's window.

  The printed predicate is the conjunction of "every pooled value is finite" and, reduced over all cells, of
  (first ≤ w < first + 512) or (first + 57344 ≤ w < first + 57856), where w is the cell's index word and
  first = ((2 * i) * 224 + 2 * j) * 256 is computed from the cell's row i and column j (two iotas) in 32-bit words;
  i, j < 112 so nothing wraps and `first` is the integer (448 i + 2 j) * 256. Signed compares read as compares of `toInt`.
-/
import proofs.«416945_j54709293416957_2_alg».proof.Pre_finite_inputs
import proofs.«416945_j54709293416957_2_alg».proof.Proof.Spec
import Idealize.ShloMosaic.Lib.ReduceAll
import Idealize.ShloMosaic.Lib.StableHlo.Predicate
import Idealize.ShloMosaic.Lib.ValueIdx
import Idealize.ShloMosaic.PureOps.Ideal

noncomputable section

namespace Cert.Unpool

open Idealize.ShloMosaic Idealize.ShloMosaic.ValueIdx

private instance : Subsingleton Cert.Pre_finite_inputs.S_.Idx := ⟨fun a b => funext fun d => d.elim0⟩

/-- The iota along axis `d` reads that coordinate as a word. -/
private theorem iota_at {T : Shape} (d : Fin T.rank) (j : T.Idx) :
    iotaInDim T 32 d j = BitVec.ofNat 32 (j d).val := rfl

/-- The first flat index of the window of the cell at row `i`, column `j`, computed in 32-bit words, is the natural
    number (448 i + 2 j) * 256: it stays below 2^31, so no product or sum wraps. -/
private theorem first_toNat (i j : ℕ) (hi : i < 112) (hj : j < 112) :
    (((2#32 * BitVec.ofNat 32 i) * 224#32 + 2#32 * BitVec.ofNat 32 j) * 256#32).toNat = (448 * i + 2 * j) * 256 := by
  simp only [BitVec.toNat_mul, BitVec.toNat_add, BitVec.toNat_ofNat]
  omega

/-- The same with a small offset added. -/
private theorem first_add_toNat (i j c : ℕ) (hi : i < 112) (hj : j < 112) (hc : c < 2 ^ 20) :
    ((((2#32 * BitVec.ofNat 32 i) * 224#32 + 2#32 * BitVec.ofNat 32 j) * 256#32) + BitVec.ofNat 32 c).toNat
      = (448 * i + 2 * j) * 256 + c := by
  rw [BitVec.toNat_add, first_toNat i j hi hj, BitVec.toNat_ofNat]
  omega

/-- Read signed, the first flat index is the integer (448 i + 2 j) * 256. -/
private theorem first_toInt (i j : ℕ) (hi : i < 112) (hj : j < 112) :
    (((2#32 * BitVec.ofNat 32 i) * 224#32 + 2#32 * BitVec.ofNat 32 j) * 256#32).toInt = ((448 * i + 2 * j) * 256 : ℤ) := by
  rw [StableHlo.Predicate.toInt_eq_toNat_of_lt (by rw [first_toNat i j hi hj]; omega), first_toNat i j hi hj]
  push_cast; ring

/-- Read signed, the first flat index plus a small offset is the integer (448 i + 2 j) * 256 + c. -/
private theorem first_add_toInt (i j c : ℕ) (hi : i < 112) (hj : j < 112) (hc : c < 2 ^ 20) :
    ((((2#32 * BitVec.ofNat 32 i) * 224#32 + 2#32 * BitVec.ofNat 32 j) * 256#32) + BitVec.ofNat 32 c).toInt
      = ((448 * i + 2 * j) * 256 + c : ℤ) := by
  rw [StableHlo.Predicate.toInt_eq_toNat_of_lt (by rw [first_add_toNat i j c hi hj hc]; omega),
    first_add_toNat i j c hi hj hc]
  push_cast; ring

/-- Under the precondition every index word points inside its own cell's window. -/
theorem maskOk_of_pre [Cert.Pre_finite_inputs.Facts] (upd : FVec Ideal SIn .f32) (mk : IVec SIn 32)
    (h : Cert.Pre_finite_inputs.fn (F := Ideal) upd mk = fun _ => 1#1) : MaskOk mk := by
  -- the predicate at its one index is a conjunction; its second conjunct is the reduce over all cells
  have h0 := congrFun h ValueIdx.ix0
  dsimp only [Cert.Pre_finite_inputs.fn, Cert.Pre_finite_inputs.fn_part1] at h0
  have h1 := (IntOp.andi_eq_one.1 h0).2
  intro s
  -- a reduce by `and` over all axes that is 1 had a 1 at the cell `s`
  have h2 := Host.reduce_andi_all _ _ _ _ _ h1 s
  clear h1 h0 h
  -- at the cell: the disjunction of two conjunctions of signed compares against the window's bounds
  simp only [ori, andi, cmpi, addi, muli, broadcastInDim, constantI, iota_at, IntOp.ori_eq_one, IntOp.andi_eq_one,
    IntOp.cmpi_sge, IntOp.cmpi_slt, IntOp.addi, IntOp.muli] at h2
  have hi : (s 1).val < 112 := (s 1).isLt
  have hj : (s 2).val < 112 := (s 2).isLt
  rw [first_toInt _ _ hi hj, first_add_toInt _ _ 512 hi hj (by norm_num),
    first_add_toInt _ _ 57344 hi hj (by norm_num), first_add_toInt _ _ 57856 hi hj (by norm_num)] at h2
  unfold InWin
  omega

end Cert.Unpool

end
-- ==== Proof.WordDefs.lean ====
/-
  The integer decoding of one index word, on both sides, as scalar functions.

  The kernel: q = w >> 8 (arithmetic), dx = q & 1, y = q // 224 (truncated quotient corrected downwards), dy = y & 1,
  selector 2 * dy + dx. The reference: row = w // 57344, column = (w // 256) % 224, by the sign-corrected truncated
  operations, each then wrapped once if negative.
-/
import Idealize.ShloMosaic.PureOps
import proofs.«416945_j54709293416957_2_alg».proof.Proof.Spec

noncomputable section

namespace Cert.Unpool

open Idealize.ShloMosaic

/-! ## The kernel's decoding of one word -/

/-- The word shifted right by 8, arithmetically. -/
def kq (w : BitVec 32) : BitVec 32 := IntOp.shrsi .vector w 8#32

/-- Division by 224 rounding down, as the kernel computes it: the truncated quotient, less one where the dividend's sign
    differs from the divisor's and the remainder is not zero. -/
def kfloor (q : BitVec 32) : BitVec 32 :=
  Scalar.select
    (IntOp.andi
      (IntOp.cmpi .ne
        (IntOp.subi ((IntOp.cmpi .sgt q 0#32).setWidth 32) ((IntOp.cmpi .slt q 0#32).setWidth 32))
        (Scalar.subi (Scalar.extui (Scalar.cmpi .sgt 224#32 0#32)) (Scalar.extui (Scalar.cmpi .slt 224#32 0#32))))
      (IntOp.cmpi .ne (IntOp.remsi .vector q 224#32) 0#32))
    (IntOp.subi (IntOp.divsi .vector q 224#32) 1#32)
    (IntOp.divsi .vector q 224#32)

/-- The kernel's selector: twice the row parity plus the column parity. -/
def kSel (w : BitVec 32) : BitVec 32 :=
  IntOp.addi (IntOp.muli (IntOp.andi (kfloor (kq w)) 1#32) 2#32) (IntOp.andi (kq w) 1#32)

/-! ## The reference's decoding of one word -/

/-- The sign of a word: 0, -1 or 1. -/
def signW (x : BitVec 32) : BitVec 32 := if x = 0 then 0 else if x.msb then -1 else 1

/-- Division rounding down by the word `c`, as the reference computes it. -/
def floorDivW (x c : BitVec 32) : BitVec 32 :=
  Scalar.select
    (IntOp.andi
      (IntOp.cmpi .ne (signW x) (signW c))
      (IntOp.cmpi .ne (IntOp.remsi .host x c) 0#32))
    (IntOp.subi (IntOp.divsi .host x c) 1#32)
    (IntOp.divsi .host x c)

/-- Remainder with the divisor's sign by the word `c` (a zero divisor replaced by one), as the reference computes it. -/
def pyModW (x c : BitVec 32) : BitVec 32 :=
  let c' : BitVec 32 := Scalar.select (IntOp.cmpi .eq c 0#32) 1#32 c
  Scalar.select
    (IntOp.andi
      (IntOp.cmpi .ne (IntOp.cmpi .slt (IntOp.remsi .host x c') 0#32) (IntOp.cmpi .slt c' 0#32))
      (IntOp.cmpi .ne (IntOp.remsi .host x c') 0#32))
    (IntOp.addi (IntOp.remsi .host x c') c')
    (IntOp.remsi .host x c')

/-- A component wrapped once if negative. -/
def wrapW (x n : BitVec 32) : BitVec 32 := Scalar.select (IntOp.cmpi .slt x 0#32) (IntOp.addi x n) x

/-- The reference's row component of a word. -/
def rowW (w : BitVec 32) : BitVec 32 := wrapW (floorDivW w 57344#32) 224#32
/-- The reference's column component of a word. -/
def colW (w : BitVec 32) : BitVec 32 := wrapW (pyModW (floorDivW w 256#32) 224#32) 224#32

end Cert.Unpool

end
-- ==== Proof.KernelPayload.lean ====
/-
  What one grid point of the kernel leaves in its output block, entry by entry.

  The point's input blocks are 16 rows of the pooled array `x0` and of the index array `x1`, shape [1, 16, 112, 256].
  The output block has shape [1, 16, 2, 112, 512]: entry (0, r, p, w, l) is the output position with row offset p and,
  reading l = q * 256 + c, column offset q and channel c, of the cell (r, w, c). The body stores, for p = 0 and p = 1, the
  two half-rows [select (sel = 2p) x0 0 | select (sel = 2p + 1) x0 0] joined along the last axis, where sel is the
  selector the kernel decodes from the cell's index word (`kSel`). So the entry is the cell's value when its selector is
  2p + l / 256, and zero otherwise.
-/
import proofs.«416945_j54709293416957_2_alg».proof.Proof.Gen.KernelIdeal.Frame
import proofs.«416945_j54709293416957_2_alg».proof.Proof.Spec
import proofs.«416945_j54709293416957_2_alg».proof.Proof.WordDefs
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.UnpoolValue

open Idealize.ShloMosaic Idealize.ShloMosaic.ValueIdx Cert.KernelIdeal Cert.KernelIdeal.Gen Cert.Unpool

/-- A block with its leading unit axis dropped, read at a cell. -/
private theorem drop_apply {α : Type} (x : S1x16x112x256.Idx → α) (r : Fin 16) (w : Fin 112) (c : Fin 256) :
    shapeCast S16x112x256 x shapeCasts_S1x16x112x256_S16x112x256 (ix3 r w c) = x (ix4 (0 : Fin 1) r w c) :=
  shapeCast_1abc_abc_apply (m := 16) (a := 112) (b := 256) x shapeCasts_S1x16x112x256_S16x112x256 r w c

/-- The selector payload at a cell is the scalar decoding of the cell's index word. -/
theorem pay4_apply (x1 : Vec Ideal S1x16x112x256 .i32) (r : Fin 16) (w : Fin 112) (c : Fin 256) :
    k0_pay4 (F := Ideal) x1 (ix3 r w c) = kSel (x1 (ix4 (0 : Fin 1) r w c)) := by
  unfold k0_pay4
  show _ = _
  simp only [kSel, kfloor, kq, shrsi, andi, divsi, remsi, cmpi, extui, subi, muli, addi, select, broadcast]
  rw [drop_apply]

/-- The value payload at a cell is the cell's value. -/
private theorem pay3_apply (x0 : Vec Ideal S1x16x112x256 .f32) (r : Fin 16) (w : Fin 112) (c : Fin 256) :
    k0_pay3 (F := Ideal) x0 (ix3 r w c) = x0 (ix4 (0 : Fin 1) r w c) := by
  unfold k0_pay3
  exact drop_apply x0 r w c

/-- A half-row block given its two unit axes, read at an entry. -/
private theorem addUnits_apply {α : Type} (x : S16x112x512.Idx → α) (r : Fin 16) (w : Fin 112) (l : Fin 512) :
    shapeCast S1x16x1x112x512 x shapeCasts_S16x112x512_S1x16x1x112x512 (ix5 (0 : Fin 1) r (0 : Fin 1) w l)
      = x (ix3 r w l) :=
  shapeCast_apply x _ _ _ (by
    rw [Shape.rowMajor_val_three, Shape.rowMajor_val_five]
    show (r.val * 112 + w.val) * 512 + l.val = (((0 * 16 + r.val) * 1 + 0) * 112 + w.val) * 512 + l.val
    omega)

/-- Two blocks joined along the lanes, read at a lane of the left one. -/
private theorem join_left {α : Type} (a b : S16x112x256.Idx → α) (r : Fin 16) (w : Fin 112) (l : Fin 512)
    (hl : l.val < 256) :
    concatenate S16x112x512 2 [⟨S16x112x256, a⟩, ⟨S16x112x256, b⟩] concatenates_S16x112x256_S16x112x256_S16x112x512_d2
        (ix3 r w l)
      = a (ix3 r w ⟨l.val % 256, Nat.mod_lt _ (by norm_num)⟩) :=
  concatenate_pair_apply_left 2 a b _ (ix3 r w l) rfl (ix3 r w ⟨l.val % 256, Nat.mod_lt _ (by norm_num)⟩)
    (fun c => match c with
      | ⟨0, _⟩ => rfl
      | ⟨1, _⟩ => rfl
      | ⟨2, _⟩ => by show l.val % 256 = l.val; omega)

/-- Two blocks joined along the lanes, read at a lane of the right one. -/
private theorem join_right {α : Type} (a b : S16x112x256.Idx → α) (r : Fin 16) (w : Fin 112) (l : Fin 512)
    (hl : 256 ≤ l.val) :
    concatenate S16x112x512 2 [⟨S16x112x256, a⟩, ⟨S16x112x256, b⟩] concatenates_S16x112x256_S16x112x256_S16x112x512_d2
        (ix3 r w l)
      = b (ix3 r w ⟨l.val % 256, Nat.mod_lt _ (by norm_num)⟩) :=
  concatenate_pair_apply_right 2 a b _ (ix3 r w l) rfl rfl (ix3 r w ⟨l.val % 256, Nat.mod_lt _ (by norm_num)⟩)
    (fun c => match c with
      | ⟨0, _⟩ => fun _ => rfl
      | ⟨1, _⟩ => fun _ => rfl
      | ⟨2, _⟩ => fun h => absurd rfl h)
    (by have := l.isLt; show l.val % 256 + 256 = l.val; omega)

/-- A half-row at a cell: the cell's value where the selector is the constant, zero elsewhere. -/
private theorem pick_apply (v1 : FVec Ideal S16x112x256 .f32) (v36 k : IVec S16x112x256 32) (i : S16x112x256.Idx) :
    select (cmpi .eq v36 k) v1 (broadcast S16x112x256 (Scalar.ofBits (F := Ideal) .f32 0x00000000#32)) i
      = if v36 i = k i then (v1 i : EReal) else 0 := by
  show Scalar.select (IntOp.cmpi .eq (v36 i) (k i)) (v1 i) (Ideal.ofBits .f32 0x00000000#32) = _
  rw [Ideal.ofBits_zero_f32]
  unfold Scalar.select
  by_cases h : v36 i = k i
  · rw [if_pos h]; exact if_pos (IntOp.cmpi_eq.mpr h)
  · rw [if_neg h]; exact if_neg (fun e => h (IntOp.cmpi_eq.mp e))
/-- The first stored half-row pair at an entry: selector 0 on the left lanes, 1 on the right. -/
private theorem pay1_apply (v1 : FVec Ideal S16x112x256 .f32) (v36 v37 : IVec S16x112x256 32)
    (r : Fin 16) (w : Fin 112) (l : Fin 512) :
    k0_pay1 (F := Ideal) v1 v36 v37 (ix5 (0 : Fin 1) r (0 : Fin 1) w l)
      = if l.val < 256 then
          (if v36 (ix3 r w ⟨l.val % 256, Nat.mod_lt _ (by norm_num)⟩) = v37 (ix3 r w ⟨l.val % 256, Nat.mod_lt _ (by norm_num)⟩)
            then (v1 (ix3 r w ⟨l.val % 256, Nat.mod_lt _ (by norm_num)⟩) : EReal) else 0)
        else
          (if v36 (ix3 r w ⟨l.val % 256, Nat.mod_lt _ (by norm_num)⟩) = 1#32
            then (v1 (ix3 r w ⟨l.val % 256, Nat.mod_lt _ (by norm_num)⟩) : EReal) else 0) := by
  unfold k0_pay1
  refine (addUnits_apply _ r w l).trans ?_
  split
  · next hl =>
    refine (join_left _ _ r w l hl).trans ?_
    exact pick_apply v1 v36 v37 _
  · next hl =>
    refine (join_right _ _ r w l (by omega)).trans ?_
    exact pick_apply v1 v36 (broadcast S16x112x256 1#32) _

/-- The second stored half-row pair at an entry: selector 2 on the left lanes, 3 on the right. -/
private theorem pay2_apply (v1 : FVec Ideal S16x112x256 .f32) (v36 : IVec S16x112x256 32)
    (r : Fin 16) (w : Fin 112) (l : Fin 512) :
    k0_pay2 (F := Ideal) v1 v36 (ix5 (0 : Fin 1) r (0 : Fin 1) w l)
      = if l.val < 256 then
          (if v36 (ix3 r w ⟨l.val % 256, Nat.mod_lt _ (by norm_num)⟩) = 2#32
            then (v1 (ix3 r w ⟨l.val % 256, Nat.mod_lt _ (by norm_num)⟩) : EReal) else 0)
        else
          (if v36 (ix3 r w ⟨l.val % 256, Nat.mod_lt _ (by norm_num)⟩) = 3#32
            then (v1 (ix3 r w ⟨l.val % 256, Nat.mod_lt _ (by norm_num)⟩) : EReal) else 0) := by
  unfold k0_pay2
  refine (addUnits_apply _ r w l).trans ?_
  split
  · next hl =>
    refine (join_left _ _ r w l hl).trans ?_
    exact pick_apply v1 v36 (broadcast S16x112x256 2#32) _
  · next hl =>
    refine (join_right _ _ r w l (by omega)).trans ?_
    exact pick_apply v1 v36 (broadcast S16x112x256 3#32) _

private theorem zeros4 : (![0, 0, 0, 0] : Fin 4 → Nat) = fun _ => 0 := by
  funext a; fin_cases a <;> rfl

/-- A load through the whole input block reads the block. -/
private theorem ld_block {e : EltTy} (x : Vec Ideal S1x16x112x256 e) : View.ld x r0_0 = x :=
  View.ld_unit_zero (S := S1x16x112x256) zeros4 _ x

/-- The first store's rectangle places its entries at row offset 0. -/
private theorem emb_row0 (r : Fin 16) (w : Fin 112) (l : Fin 512) :
    r0_1.emb (ix5 (0 : Fin 1) r (0 : Fin 1) w l) = ix5 (0 : Fin 1) r (0 : Fin 2) w l := by
  funext a
  match a with
  | ⟨0, _⟩ => exact Fin.ext (by show 0 + 1 * 0 = 0; rfl)
  | ⟨1, _⟩ => exact Fin.ext (by show 0 + 1 * r.val = r.val; omega)
  | ⟨2, _⟩ => exact Fin.ext (by show 0 + 1 * 0 = 0; rfl)
  | ⟨3, _⟩ => exact Fin.ext (by show 0 + 1 * w.val = w.val; omega)
  | ⟨4, _⟩ => exact Fin.ext (by show 0 + 1 * l.val = l.val; omega)

/-- The second store's rectangle places its entries at row offset 1. -/
private theorem emb_row1 (r : Fin 16) (w : Fin 112) (l : Fin 512) :
    r0_2.emb (ix5 (0 : Fin 1) r (0 : Fin 1) w l) = ix5 (0 : Fin 1) r (1 : Fin 2) w l := by
  funext a
  match a with
  | ⟨0, _⟩ => exact Fin.ext (by show 0 + 1 * 0 = 0; rfl)
  | ⟨1, _⟩ => exact Fin.ext (by show 0 + 1 * r.val = r.val; omega)
  | ⟨2, _⟩ => exact Fin.ext (by show 1 + 1 * 0 = 1; rfl)
  | ⟨3, _⟩ => exact Fin.ext (by show 0 + 1 * w.val = w.val; omega)
  | ⟨4, _⟩ => exact Fin.ext (by show 0 + 1 * l.val = l.val; omega)

/-- An entry at row offset 0 is outside the second store's rectangle. -/
private theorem row0_not_mem (r : Fin 16) (w : Fin 112) (l : Fin 512) :
    ix5 (0 : Fin 1) r (0 : Fin 2) w l ∉ r0_2.set := by
  intro h
  have h2 := (Rect.mem_set_unit.mp h) 2
  have h3 : (1 : ℕ) ≤ 0 := h2.1
  omega

/-- Two stores, the second through the rectangle at row offset 1 and the first through the one at row offset 0, leave at an
    entry of row offset 0 what the first wrote. -/
private theorem canon_row0 (P2 P1 : Vec Ideal S1x16x1x112x512 .f32) (r : Fin 16) (w : Fin 112) (l : Fin 512) :
    View.canon ([⟨r0_2, P2⟩, ⟨r0_1, P1⟩] : List (View.Piece (Elt Ideal) S1x16x2x112x512 .f32))
        (ix5 (0 : Fin 1) r (0 : Fin 2) w l)
      = P1 (ix5 (0 : Fin 1) r (0 : Fin 1) w l) := by
  refine (View.canon_cons_of_not_mem (Val := Elt Ideal) ⟨r0_2, P2⟩ [⟨r0_1, P1⟩] (row0_not_mem r w l)).trans ?_
  rw [← emb_row0 r w l]
  exact View.canon_cons_emb (Val := Elt Ideal) r0_1 P1 [] _

/-- And at an entry of row offset 1 what the second wrote. -/
private theorem canon_row1 (P2 P1 : Vec Ideal S1x16x1x112x512 .f32) (r : Fin 16) (w : Fin 112) (l : Fin 512) :
    View.canon ([⟨r0_2, P2⟩, ⟨r0_1, P1⟩] : List (View.Piece (Elt Ideal) S1x16x2x112x512 .f32))
        (ix5 (0 : Fin 1) r (1 : Fin 2) w l)
      = P2 (ix5 (0 : Fin 1) r (0 : Fin 1) w l) := by
  rw [← emb_row1 r w l]
  exact View.canon_cons_emb (Val := Elt Ideal) r0_2 P2 [⟨r0_1, P1⟩] _

/-- One entry of the block a grid point writes: the cell's value where the cell's selector names this offset pair. -/
theorem out0_2_apply (x0 : Vec Ideal S1x16x112x256 .f32) (x1 : Vec Ideal S1x16x112x256 .i32)
    (r : Fin 16) (p : Fin 2) (w : Fin 112) (l : Fin 512) :
    out0_2 (F := Ideal) x0 x1 (ix5 (0 : Fin 1) r p w l)
      = if kSel (x1 (ix4 (0 : Fin 1) r w ⟨l.val % 256, Nat.mod_lt _ (by norm_num)⟩)) = BitVec.ofNat 32 (2 * p.val + l.val / 256)
        then (x0 (ix4 (0 : Fin 1) r w ⟨l.val % 256, Nat.mod_lt _ (by norm_num)⟩) : EReal) else 0 := by
  have hp : p = 0 ∨ p = 1 := by
    rcases p with ⟨v, hv⟩
    interval_cases v
    · exact Or.inl rfl
    · exact Or.inr rfl
  have hl5 : l.val < 512 := l.isLt
  unfold out0_2
  rw [ld_block x0, ld_block x1]
  rcases hp with rfl | rfl
  · refine (canon_row0 _ _ r w l).trans ?_
    rw [pay1_apply, pay4_apply, pay3_apply]
    by_cases hl : l.val < 256
    · have e : l.val / 256 = 0 := by omega
      rw [if_pos hl, e]
      rfl
    · have e : l.val / 256 = 1 := by omega
      rw [if_neg hl, e]
      rfl
  · refine (canon_row1 _ _ r w l).trans ?_
    rw [pay2_apply, pay4_apply, pay3_apply]
    by_cases hl : l.val < 256
    · have e : l.val / 256 = 0 := by omega
      rw [if_pos hl, e]
      rfl
    · have e : l.val / 256 = 1 := by omega
      rw [if_neg hl, e]
      rfl

end Cert.KernelIdeal.UnpoolValue

end
-- ==== Proof.WordArith.lean ====
/-
  What the integer decodings of one index word, on both sides, compute for a word that
  points inside its cell's window (`InWin w i j`: w = ((2i + dy) * 224 + (2j + dx)) * 256 + c', a nonnegative word
  far below 2^31).

  The kernel: q = w >> 8 (arithmetic), dx = q & 1, y = q // 224 (truncated quotient corrected downwards), dy = y & 1,
  selector 2 * dy + dx. Since w ≥ 0 every step is the natural-number one: q = w / 256, y = w / 57344, and the selector is
  2 * rowBit w + colBit w.

  The reference: row = w // 57344, column = (w // 256) % 224, both by the sign-corrected truncated operations, then
  wrapped if negative. For w ≥ 0 these are w / 57344 = 2i + dy and (w / 256) % 224 = 2j + dx, and 224 is even, so the
  parities are rowBit w and colBit w.
-/
import Idealize.ShloMosaic.PureOps
import proofs.«416945_j54709293416957_2_alg».proof.Proof.Spec
import proofs.«416945_j54709293416957_2_alg».proof.Proof.WordDefs

noncomputable section

namespace Cert.Unpool

open Idealize.ShloMosaic

/-! ## Words that are not negative

A word inside a window is a natural number below 2^31; on such words the signed quotient, the signed remainder and the
arithmetic shift are the unsigned ones, and a positive divisor is never at the division's corner. -/

/-- A word inside its window, read as a natural number: it is below 2^31 and lies in one of the window's two runs. -/
private theorem inWin_nat {w : BitVec 32} {i j : ℕ} (hi : i < 112) (hj : j < 112) (h : InWin w i j) :
    w.toNat < 2 ^ 31 ∧ (((448 * i + 2 * j) * 256 ≤ w.toNat ∧ w.toNat < (448 * i + 2 * j) * 256 + 512) ∨
      ((448 * i + 2 * j) * 256 + 57344 ≤ w.toNat ∧ w.toNat < (448 * i + 2 * j) * 256 + 57856)) := by
  unfold InWin at h
  have h1 := BitVec.toInt_eq_toNat_cond w
  have h2 := w.isLt
  split at h1 <;> omega

/-- A word below 2^31 has its top bit clear. -/
private theorem msb_of_lt (x : BitVec 32) (h : x.toNat < 2 ^ 31) : x.msb = false := by
  rw [BitVec.msb_eq_decide]; simp; omega

/-- A word with its top bit clear is below 2^31. -/
private theorem lt_of_msb (x : BitVec 32) (h : x.msb = false) : x.toNat < 2 ^ 31 := by
  have := BitVec.msb_eq_false_iff_two_mul_lt.mp h; omega

/-- A word below 2^31 reads signed as itself. -/
private theorem toInt_of_lt (x : BitVec 32) (h : x.toNat < 2 ^ 31) : x.toInt = (x.toNat : ℤ) :=
  BitVec.toInt_eq_toNat_of_msb (msb_of_lt x h)

private theorem sdiv_nonneg (x c : BitVec 32) (hx : x.msb = false) (hc : c.msb = false) : x.sdiv c = x / c := by
  rw [BitVec.sdiv_eq]; simp [hx, hc]

private theorem srem_nonneg (x c : BitVec 32) (hx : x.msb = false) (hc : c.msb = false) : x.srem c = x % c := by
  rw [BitVec.srem_eq]; simp [hx, hc]

/-- A positive divisor is neither zero nor minus one. -/
private theorem not_corner (x c : BitVec 32) (hc : c.msb = false) (hc0 : c ≠ 0) : ¬ IntOp.SDivCorner x c := by
  unfold IntOp.SDivCorner
  rintro (h | ⟨-, h⟩)
  · exact hc0 h
  · subst h; exact absurd hc (by decide)

private theorem divsi_nonneg (u : ArithUnit) (x c : BitVec 32) (hx : x.msb = false) (hc : c.msb = false)
    (hc0 : c ≠ 0) : IntOp.divsi u x c = x / c := by
  unfold IntOp.divsi; rw [if_neg (not_corner x c hc hc0), sdiv_nonneg x c hx hc]

private theorem remsi_nonneg (u : ArithUnit) (x c : BitVec 32) (hx : x.msb = false) (hc : c.msb = false)
    (hc0 : c ≠ 0) : IntOp.remsi u x c = x % c := by
  unfold IntOp.remsi; rw [if_neg (not_corner x c hc hc0), srem_nonneg x c hx hc]

/-- The quotient of a word below 2^31 is below 2^31. -/
private theorem msb_udiv (x c : BitVec 32) (hx : x.msb = false) : (x / c).msb = false := by
  apply msb_of_lt
  have := lt_of_msb x hx
  rw [BitVec.toNat_udiv]
  exact lt_of_le_of_lt (Nat.div_le_self _ _) this

/-- Zero is below, in the signed order, every word that is neither negative nor zero. -/
private theorem zero_slt_of_ne (q : BitVec 32) (hq : q.msb = false) (hq0 : q ≠ 0) : (0#32).slt q = true := by
  rw [BitVec.slt_iff_toInt_lt, BitVec.toInt_eq_toNat_of_msb hq]
  have : q.toNat ≠ 0 := fun h => hq0 (BitVec.eq_of_toNat_eq (by simpa using h))
  simp; omega

/-! ## The kernel's decoding of one word -/

/-- For a word that is not negative the arithmetic shift is the logical one. -/
private theorem kq_nonneg (w : BitVec 32) (hw : w.msb = false) : kq w = w >>> 8 := by
  unfold kq IntOp.shrsi
  rw [if_pos (by decide), BitVec.sshiftRight_eq', BitVec.sshiftRight_eq_of_msb_false hw]
  rfl

/-- For a dividend that is not negative the kernel's division rounding down is the plain quotient: a positive dividend
    has the divisor's sign, and a zero dividend leaves no remainder. -/
private theorem kfloor_nonneg (q : BitVec 32) (hq : q.msb = false) : kfloor q = q / 224#32 := by
  unfold kfloor
  rw [divsi_nonneg _ q _ hq (by decide) (by decide), remsi_nonneg _ q _ hq (by decide) (by decide)]
  by_cases hq0 : q = 0
  · subst hq0; simp [Scalar.select, IntOp.cmpi, IntOp.andi]
  · have h1 := zero_slt_of_ne q hq hq0
    have h2 : q.slt 0#32 = false := by rw [BitVec.slt_zero_eq_msb, hq]
    simp [Scalar.select, IntOp.cmpi, IntOp.andi, IntOp.subi, Scalar.subi, Scalar.extui, Scalar.cmpi, h1, h2]

/-- For a word inside its window the kernel's selector is `2 * rowBit w + colBit w`. -/
theorem kSel_eq {w : BitVec 32} {i j : ℕ} (hi : i < 112) (hj : j < 112) (h : InWin w i j) :
    kSel w = BitVec.ofNat 32 (2 * rowBit w + colBit w) := by
  obtain ⟨hlt, -⟩ := inWin_nat hi hj h
  have hw := msb_of_lt w hlt
  have hq : (w >>> 8).msb = false := by
    apply msb_of_lt; rw [BitVec.toNat_ushiftRight, Nat.shiftRight_eq_div_pow]; omega
  unfold kSel
  rw [kq_nonneg w hw, kfloor_nonneg _ hq]
  apply BitVec.eq_of_toNat_eq
  simp only [IntOp.addi, IntOp.muli, IntOp.andi, BitVec.toNat_add, BitVec.toNat_mul, BitVec.toNat_and,
    BitVec.toNat_udiv, BitVec.toNat_ushiftRight, BitVec.toNat_ofNat, Nat.shiftRight_eq_div_pow, Nat.reducePow,
    Nat.reduceMod, Nat.and_one_is_mod, rowBit, colBit]
  have hd : w.toNat / 256 / 224 = w.toNat / 57344 := Nat.div_div_eq_div_mul _ _ _
  rw [hd]
  omega

/-! ## The reference's decoding of one word -/

/-- The sign of a positive word is one. -/
private theorem signW_pos (c : BitVec 32) (hc : c.msb = false) (hc0 : c ≠ 0) : signW c = 1 := by
  unfold signW; rw [if_neg hc0, hc]; simp

/-- For a dividend that is not negative and a positive divisor the reference's division rounding down is the plain
    quotient. -/
private theorem floorDivW_nonneg (x c : BitVec 32) (hx : x.msb = false) (hc : c.msb = false) (hc0 : c ≠ 0) :
    floorDivW x c = x / c := by
  unfold floorDivW
  rw [divsi_nonneg _ x c hx hc hc0, remsi_nonneg _ x c hx hc hc0, signW_pos c hc hc0]
  by_cases hx0 : x = 0
  · subst hx0; simp [Scalar.select, IntOp.cmpi, IntOp.andi]
  · rw [signW_pos x hx hx0]; simp [Scalar.select, IntOp.cmpi, IntOp.andi]

/-- For a dividend that is not negative and a positive divisor the reference's remainder is the plain one. -/
private theorem pyModW_nonneg (x c : BitVec 32) (hx : x.msb = false) (hc : c.msb = false) (hc0 : c ≠ 0) :
    pyModW x c = x % c := by
  have hb : (c == 0#32) = false := beq_eq_false_iff_ne.mpr hc0
  have hsel : Scalar.select (IntOp.cmpi .eq c 0#32) 1#32 c = c := by
    simp [Scalar.select, IntOp.cmpi, hb]
  have hr : (x % c).msb = false := by
    apply msb_of_lt
    have := lt_of_msb x hx
    rw [BitVec.toNat_umod]
    exact lt_of_le_of_lt (Nat.mod_le _ _) this
  unfold pyModW
  simp only [hsel]
  rw [remsi_nonneg _ x c hx hc hc0]
  simp [Scalar.select, IntOp.cmpi, IntOp.andi, BitVec.slt_zero_eq_msb, hr, hc]

/-- A word that is not negative is left as it is by the wrap. -/
private theorem wrapW_nonneg (x n : BitVec 32) (hx : x.msb = false) : wrapW x n = x := by
  unfold wrapW
  simp [Scalar.select, IntOp.cmpi, BitVec.slt_zero_eq_msb, hx]

/-- For a word inside the window of the cell at row `i`, the reference's row is `2i` plus the word's row parity. -/
theorem rowW_toInt {w : BitVec 32} {i j : ℕ} (hi : i < 112) (hj : j < 112) (h : InWin w i j) :
    (rowW w).toInt = ((2 * i + rowBit w : ℕ) : ℤ) := by
  obtain ⟨hlt, hr⟩ := inWin_nat hi hj h
  have hw := msb_of_lt w hlt
  unfold rowW
  rw [floorDivW_nonneg w _ hw (by decide) (by decide), wrapW_nonneg _ _ (msb_udiv w _ hw)]
  rw [BitVec.toInt_eq_toNat_of_msb (msb_udiv w _ hw), BitVec.toNat_udiv]
  simp only [BitVec.toNat_ofNat, Nat.reducePow, Nat.reduceMod, rowBit]
  omega

/-- For a word inside the window of the cell at column `j`, the reference's column is `2j` plus the word's column parity. -/
theorem colW_toInt {w : BitVec 32} {i j : ℕ} (hi : i < 112) (hj : j < 112) (h : InWin w i j) :
    (colW w).toInt = ((2 * j + colBit w : ℕ) : ℤ) := by
  obtain ⟨hlt, hr⟩ := inWin_nat hi hj h
  have hw := msb_of_lt w hlt
  have hq : (w / 256#32).msb = false := msb_udiv w _ hw
  have hm : ((w / 256#32) % 224#32).msb = false := by
    apply msb_of_lt
    rw [BitVec.toNat_umod, BitVec.toNat_udiv]
    simp only [BitVec.toNat_ofNat, Nat.reducePow, Nat.reduceMod]
    omega
  unfold colW
  rw [floorDivW_nonneg w _ hw (by decide) (by decide), pyModW_nonneg _ _ hq (by decide) (by decide),
    wrapW_nonneg _ _ hm]
  rw [BitVec.toInt_eq_toNat_of_msb hm, BitVec.toNat_umod, BitVec.toNat_udiv]
  simp only [BitVec.toNat_ofNat, Nat.reducePow, Nat.reduceMod, colBit]
  omega

/-- A parity is 0 or 1. -/
theorem rowBit_lt (w : BitVec 32) : rowBit w < 2 := Nat.mod_lt _ (by norm_num)
theorem colBit_lt (w : BitVec 32) : colBit w < 2 := Nat.mod_lt _ (by norm_num)

/-- A small coordinate as a word is not negative, so wrapping leaves it. -/
theorem wrapW_ofNat {k : ℕ} (hk : k < 256) (n : BitVec 32) : (wrapW (BitVec.ofNat 32 k) n).toInt = (k : ℤ) := by
  have hlt : (BitVec.ofNat 32 k).toNat < 2 ^ 31 := by
    rw [BitVec.toNat_ofNat]; exact lt_of_le_of_lt (Nat.mod_le _ _) (by omega)
  rw [wrapW_nonneg _ _ (msb_of_lt _ hlt), toInt_of_lt _ hlt, BitVec.toNat_ofNat]
  have : k % 2 ^ 32 = k := Nat.mod_eq_of_lt (by omega)
  rw [this]

end Cert.Unpool

end
-- ==== Proof.KernelArray.lean ====
/-
  From the blocks the grid points write to the whole five-axis output array.

  Grid point t = (b, h) of the 8 x 7 grid reads rows 16h .. 16h + 15 of batch b of both inputs and writes the block
  [b, 16h .. 16h + 15, 0 .. 1, all columns, all 512 lanes] of the five-axis array. Entry (0, r, p, w, l) of that block is
  array position (b, 16h + r, p, w, l), and the two input cells it reads are (b, 16h + r, w, l % 256). With the kernel's
  selector equal to 2 * rowBit + colBit on index words inside their windows, the block is the restriction of `G5`; the
  blocks cover the array, so the array after the run is `G5` of the argument arrays.
-/
import proofs.«416945_j54709293416957_2_alg».proof.Proof.KernelPayload
import proofs.«416945_j54709293416957_2_alg».proof.Proof.WordArith

set_option maxRecDepth 16384

noncomputable section

namespace Cert.KernelIdeal.UnpoolValue

open Idealize.ShloMosaic Idealize.ShloMosaic.ValueIdx Idealize.ShloMosaic.Pipeline Cert.KernelIdeal Cert.KernelIdeal.Gen Cert.Unpool

variable (m : (ℓ : Loc nD τ sig) → Buf (Elt Ideal) ℓ)

/-- The pooled array as the region finds it, at its literal type. -/
abbrev updArr (c : Dev nD) : FVec Ideal S8x112x112x256 .f32 := V m c main_arg0
/-- The index array as the region finds it, at its literal type. -/
abbrev maskArr (c : Dev nD) : IVec S8x112x112x256 32 := V m c main_arg1

/-! ## The printed index maps, decided over the 56 grid points -/

/-- Both input windows move with the output window on the batch and row axes, every other block index is zero, and the
    output's block indices stay in their ranges. -/
theorem idx_facts : ∀ t : Fin cfg0.N,
    win0_0.index t (0 : Fin 4) = win0_2.index t (0 : Fin 5) ∧ win0_0.index t (1 : Fin 4) = win0_2.index t (1 : Fin 5)
    ∧ win0_0.index t (2 : Fin 4) = 0 ∧ win0_0.index t (3 : Fin 4) = 0
    ∧ win0_1.index t (0 : Fin 4) = win0_2.index t (0 : Fin 5) ∧ win0_1.index t (1 : Fin 4) = win0_2.index t (1 : Fin 5)
    ∧ win0_1.index t (2 : Fin 4) = 0 ∧ win0_1.index t (3 : Fin 4) = 0
    ∧ win0_2.index t (2 : Fin 5) = 0 ∧ win0_2.index t (3 : Fin 5) = 0 ∧ win0_2.index t (4 : Fin 5) = 0
    ∧ win0_2.index t (0 : Fin 5) ≤ 7 ∧ win0_2.index t (1 : Fin 5) ≤ 6 :=
  (by decide +kernel : ∀ t : Fin grid0.N, _)

/-- Every pair of a batch and a band of 16 rows is some grid point's block. -/
theorem idx_onto : ∀ (b : Fin 8) (h : Fin 7), ∃ t : Fin cfg0.N, win0_2.index t = ![b.val, h.val, 0, 0, 0] :=
  (by decide +kernel : ∀ (b : Fin 8) (h : Fin 7), ∃ t : Fin grid0.N, win0_2.index t = ![b.val, h.val, 0, 0, 0])

/-! ## One entry of a block is one entry of `G5` -/

/-- Two selector words `2 a + b` and `2 p + q` with all four numbers below 2 are equal exactly when a = p and b = q. -/
private theorem ofNat_pair_eq_iff {a b p q : ℕ} (ha : a < 2) (hb : b < 2) (hp : p < 2) (hq : q < 2) :
    BitVec.ofNat 32 (2 * a + b) = BitVec.ofNat 32 (2 * p + q) ↔ a = p ∧ b = q := by
  constructor
  · intro h
    have h' := congrArg BitVec.toNat h
    rw [BitVec.toNat_ofNat, BitVec.toNat_ofNat] at h'
    omega
  · rintro ⟨rfl, rfl⟩; rfl

/-- `G5` at the position `i`, read at any spelling `s` of the cell (batch, row, column, lane modulo 256) of `i`. -/
private theorem G5_apply (upd : S8x112x112x256.Idx → EReal) (mk : IVec S8x112x112x256 32) (i : S8x112x2x112x512.Idx)
    (s : S8x112x112x256.Idx) (hs0 : (s 0).val = (i 0).val) (hs1 : (s 1).val = (i 1).val) (hs2 : (s 2).val = (i 3).val)
    (hs3 : (s 3).val = (i 4).val % 256) :
    G5 upd mk i = if rowBit (mk s) = (i 2).val ∧ colBit (mk s) = (i 4).val / 256 then upd s else 0 := by
  have hs : s = ix4 (n0 := 8) (n1 := 112) (n2 := 112) (n3 := 256) ⟨(i 0).val, (i 0).isLt⟩ ⟨(i 1).val, (i 1).isLt⟩
      ⟨(i 3).val, (i 3).isLt⟩ ⟨(i 4).val % 256, Nat.mod_lt _ (by norm_num)⟩ := by
    funext a; apply Fin.ext
    match a with
    | ⟨0, _⟩ => exact hs0
    | ⟨1, _⟩ => exact hs1
    | ⟨2, _⟩ => exact hs2
    | ⟨3, _⟩ => exact hs3
  subst hs
  rfl

/-- Entry (0, r, p, w, l) of the block written from the input blocks `x0`, `x1` is entry `i` of `G5` of the whole arrays,
    when `i` is (B, 16 H + r, p, w, l) and the input blocks are rows 16 H .. 16 H + 15 of batch B of the arrays. -/
private theorem entry_eq (x0 : Vec Ideal S1x16x112x256 .f32) (x1 : Vec Ideal S1x16x112x256 .i32)
    (upd : FVec Ideal S8x112x112x256 .f32) (mk : IVec S8x112x112x256 32) (hok : MaskOk mk)
    (y : S1x16x2x112x512.Idx) (i : S8x112x2x112x512.Idx) (B H : ℕ)
    (h0 : (i 0).val = B) (h1 : (i 1).val = H * 16 + (y 1).val) (h2 : (i 2).val = (y 2).val)
    (h3 : (i 3).val = (y 3).val) (h4 : (i 4).val = (y 4).val)
    (hx0 : ∀ (z : S1x16x112x256.Idx) (s : S8x112x112x256.Idx), (s 0).val = B → (s 1).val = H * 16 + (z 1).val →
      (s 2).val = (z 2).val → (s 3).val = (z 3).val → x0 z = upd s)
    (hx1 : ∀ (z : S1x16x112x256.Idx) (s : S8x112x112x256.Idx), (s 0).val = B → (s 1).val = H * 16 + (z 1).val →
      (s 2).val = (z 2).val → (s 3).val = (z 3).val → x1 z = mk s) :
    (out0_2 (F := Ideal) x0 x1 y : EReal) = G5 upd mk i := by
  obtain ⟨a, r, p, w, l, rfl⟩ : ∃ (a : Fin 1) (r : Fin 16) (p : Fin 2) (w : Fin 112) (l : Fin 512), y = ix5 a r p w l :=
    ⟨y 0, y 1, y 2, y 3, y 4, eq_ix5 y⟩
  obtain rfl : a = 0 := Subsingleton.elim _ _
  have h1' : (i 1).val = H * 16 + r.val := h1
  have h2' : (i 2).val = p.val := h2
  have h3' : (i 3).val = w.val := h3
  have h4' : (i 4).val = l.val := h4
  have hl : l.val < 512 := l.isLt
  have hp : p.val < 2 := p.isLt
  have hi1 : (i 1).val < 112 := (i 1).isLt
  have hi3 : (i 3).val < 112 := (i 3).isLt
  -- the cell of the input arrays that this entry reads
  obtain ⟨s, hs0, hs1, hs2, hs3⟩ : ∃ s : S8x112x112x256.Idx, (s 0).val = (i 0).val ∧ (s 1).val = (i 1).val
      ∧ (s 2).val = (i 3).val ∧ (s 3).val = (i 4).val % 256 :=
    ⟨ix4 (n0 := 8) (n1 := 112) (n2 := 112) (n3 := 256) ⟨(i 0).val, (i 0).isLt⟩ ⟨(i 1).val, (i 1).isLt⟩
      ⟨(i 3).val, (i 3).isLt⟩ ⟨(i 4).val % 256, Nat.mod_lt _ (by norm_num)⟩, rfl, rfl, rfl, rfl⟩
  have e0 : x0 (ix4 (0 : Fin 1) r w ⟨l.val % 256, Nat.mod_lt _ (by norm_num)⟩) = upd s :=
    hx0 _ s (hs0.trans h0) (hs1.trans h1') (hs2.trans h3') (by rw [hs3, h4'])
  have e1 : x1 (ix4 (0 : Fin 1) r w ⟨l.val % 256, Nat.mod_lt _ (by norm_num)⟩) = mk s :=
    hx1 _ s (hs0.trans h0) (hs1.trans h1') (hs2.trans h3') (by rw [hs3, h4'])
  rw [out0_2_apply, e0, e1, G5_apply upd mk i s hs0 hs1 hs2 hs3,
    kSel_eq (by omega : (s 1).val < 112) (by omega : (s 2).val < 112) (hok s)]
  refine if_congr ?_ rfl rfl
  rw [h2', h4']
  exact ofNat_pair_eq_iff (rowBit_lt _) (colBit_lt _) hp (by omega)

/-! ## What a grid point writes back is its block of `G5` -/

/-- What grid point `t` writes back to the five-axis array is block `t` of `G5` of the argument arrays. -/
theorem flushed_eq (c : Dev nD) (hok : MaskOk (maskArr m c)) (t : Fin cfg0.N) :
    (dats m 0 c).flushed 2 t = ((cfg0.win 2).blk t).view.read (Elt Ideal) (G5 (updArr m c) (maskArr m c)) := by
  show (cfg0.win 2).cut (grid0.coords t) ((dats m 0 c).after 2 t) = _
  rw [after0_2]
  obtain ⟨a00, a01, a02, a03, a10, a11, a12, a13, o2, o3, o4, -, -⟩ := idx_facts t
  funext j
  show (out0_2 (F := Ideal) (iblk m c 0 t) (iblk m c 1 t) ((cfg0.win 2).xinj (grid0.coords t) j) : EReal)
    = G5 (updArr m c) (maskArr m c) (((cfg0.win 2).blk t).view.emb j)
  have hj0 : (j 0).val < 1 := (j 0).isLt
  refine entry_eq (iblk m c 0 t) (iblk m c 1 t) (updArr m c) (maskArr m c) hok _ _
    (win0_2.index t (0 : Fin 5)) (win0_2.index t (1 : Fin 5)) ?_ ?_ ?_ ?_ ?_ ?_ ?_
  · show win0_2.index t (0 : Fin 5) * 1 + 1 * (j 0).val = win0_2.index t (0 : Fin 5); omega
  · show win0_2.index t (1 : Fin 5) * 16 + 1 * (j 1).val = win0_2.index t (1 : Fin 5) * 16 + (j 1).val; omega
  · show win0_2.index t (2 : Fin 5) * 2 + 1 * (j 2).val = (j 2).val; omega
  · show win0_2.index t (3 : Fin 5) * 112 + 1 * (j 3).val = (j 3).val; omega
  · show win0_2.index t (4 : Fin 5) * 512 + 1 * (j 4).val = (j 4).val; omega
  · intro z s hs0 hs1 hs2 hs3
    have hz0 : (z 0).val < 1 := (z 0).isLt
    show V m c main_arg0 (((cfg0.win 0).blk t).view.emb z) = V m c main_arg0 s
    congr 1
    funext a; apply Fin.ext
    match a with
    | ⟨0, _⟩ => show win0_0.index t (0 : Fin 4) * 1 + 1 * (z 0).val = (s 0).val; omega
    | ⟨1, _⟩ => show win0_0.index t (1 : Fin 4) * 16 + 1 * (z 1).val = (s 1).val; omega
    | ⟨2, _⟩ => show win0_0.index t (2 : Fin 4) * 112 + 1 * (z 2).val = (s 2).val; omega
    | ⟨3, _⟩ => show win0_0.index t (3 : Fin 4) * 256 + 1 * (z 3).val = (s 3).val; omega
  · intro z s hs0 hs1 hs2 hs3
    have hz0 : (z 0).val < 1 := (z 0).isLt
    show V m c main_arg1 (((cfg0.win 1).blk t).view.emb z) = V m c main_arg1 s
    congr 1
    funext a; apply Fin.ext
    match a with
    | ⟨0, _⟩ => show win0_1.index t (0 : Fin 4) * 1 + 1 * (z 0).val = (s 0).val; omega
    | ⟨1, _⟩ => show win0_1.index t (1 : Fin 4) * 16 + 1 * (z 1).val = (s 1).val; omega
    | ⟨2, _⟩ => show win0_1.index t (2 : Fin 4) * 112 + 1 * (z 2).val = (s 2).val; omega
    | ⟨3, _⟩ => show win0_1.index t (3 : Fin 4) * 256 + 1 * (z 3).val = (s 3).val; omega

/-! ## The blocks cover the array -/

/-- A position of the array is in grid point `t`'s block iff each coordinate is in the block's range on its axis. -/
theorem mem_blk (t : Fin cfg0.N) (i : S8x112x2x112x512.Idx) :
    i ∈ ((cfg0.win 2).blk t).view.set ↔ ∀ a : Fin 5, win0_2.index t a * S1x16x2x112x512.size a ≤ (i a).val
      ∧ (i a).val < win0_2.index t a * S1x16x2x112x512.size a + S1x16x2x112x512.size a := by
  show i ∈ ((View.whole main_v0).slice (win0_2.rect t)).set ↔ _
  rw [View.set_slice_whole, Rect.mem_set_unit]
  exact Iff.rfl

/-- Every position of the array is in some grid point's block: row i1 of batch b is written by the point (b, i1 / 16). -/
theorem cover (i : S8x112x2x112x512.Idx) :
    ∃ t : Fin cfg0.N, (cfg0.win 2).flush t = true ∧ i ∈ ((cfg0.win 2).blk t).view.set := by
  have hi0 : (i 0).val < 8 := (i 0).isLt
  have hi1 : (i 1).val < 112 := (i 1).isLt
  have hi2 : (i 2).val < 2 := (i 2).isLt
  have hi3 : (i 3).val < 112 := (i 3).isLt
  have hi4 : (i 4).val < 512 := (i 4).isLt
  obtain ⟨t, ht⟩ := idx_onto ⟨(i 0).val, hi0⟩ ⟨(i 1).val / 16, by omega⟩
  have q0 : win0_2.index t (0 : Fin 5) = (i 0).val := congrFun ht 0
  have q1 : win0_2.index t (1 : Fin 5) = (i 1).val / 16 := congrFun ht 1
  have q2 : win0_2.index t (2 : Fin 5) = 0 := congrFun ht 2
  have q3 : win0_2.index t (3 : Fin 5) = 0 := congrFun ht 3
  have q4 : win0_2.index t (4 : Fin 5) = 0 := congrFun ht 4
  refine ⟨t, flush0_2 t, ?_⟩
  rw [mem_blk]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 16 ≤ (i 1).val ∧ (i 1).val < win0_2.index t (1 : Fin 5) * 16 + 16; omega
  | ⟨2, _⟩ => show win0_2.index t (2 : Fin 5) * 2 ≤ (i 2).val ∧ (i 2).val < win0_2.index t (2 : Fin 5) * 2 + 2; omega
  | ⟨3, _⟩ => show win0_2.index t (3 : Fin 5) * 112 ≤ (i 3).val ∧ (i 3).val < win0_2.index t (3 : Fin 5) * 112 + 112; omega
  | ⟨4, _⟩ => show win0_2.index t (4 : Fin 5) * 512 ≤ (i 4).val ∧ (i 4).val < win0_2.index t (4 : Fin 5) * 512 + 512; omega

/-! ## The array after the run -/

/-- The five-axis output array after the run is `G5` of the argument arrays, when every index word points inside its
    own cell's window. -/
theorem final5 (c : Dev nD) (hok : MaskOk (maskArr m c)) :
    ((dats m 0 c).arrAt 2 cfg0.N : S8x112x2x112x512.Idx → EReal) = G5 (updArr m c) (maskArr m c) :=
  (dats m 0 c).arrAt_eq_of_cover 2 (G5 (updArr m c) (maskArr m c)) (fun t _ => flushed_eq m c hok t) cover

end Cert.KernelIdeal.UnpoolValue

end
-- ==== Proof.KernelTail.lean ====
/-
  The kernel program's run read back: the five-axis array the region leaves, re-read row-major as [8, 224, 224, 256] by
  the one host operation after the region, is `G` of the arguments.

  Row-major position of (b, i, p, j, q) in [8, 112, 2, 112, 512] is (((b * 112 + i) * 2 + p) * 112 + j) * 512 + q, and of
  (b, Y, X, c) in [8, 224, 224, 256] is ((b * 224 + Y) * 224 + X) * 256 + c: they agree exactly when Y = 2i + p,
  X = 2j + q / 256, c = q % 256. So output position o reads the five-axis entry (o 0, o 1 / 2, o 1 % 2, o 2 / 2,
  (o 2 % 2) * 256 + o 3), whose cell is `srcOf o` and whose offsets are the parities of o's row and column: `G5` there
  is `G` at o.
-/
import proofs.«416945_j54709293416957_2_alg».proof.Proof.KernelArray
import Idealize.ShloMosaic.Lib.StableHlo.Run

set_option maxRecDepth 16384

noncomputable section

namespace Cert.KernelIdeal.UnpoolValue

open Idealize.ShloMosaic Idealize.ShloMosaic.ValueIdx Idealize.ShloMosaic.Pipeline Idealize.SL.Sem Cert.KernelIdeal Cert.KernelIdeal.Gen Cert.Unpool

/-- `G5` at a five-axis index whose coordinates are those of output position `o` with its row and its column split
    into half and parity is `G` at `o`: the cell is `srcOf o` (the last coordinate is below 512 with channel part below
    256, so its remainder by 256 is the channel and its quotient the column parity), and the two conditions coincide. -/
private theorem G5_at (upd : SIn.Idx → EReal) (mk : IVec SIn 32) (o : SOut.Idx) (k : SMid.Idx)
    (e0 : (k 0).val = (o 0).val) (e1 : (k 1).val = (o 1).val / 2) (e2 : (k 2).val = (o 1).val % 2)
    (e3 : (k 3).val = (o 2).val / 2) (e4 : (k 4).val = (o 2).val % 2 * 256 + (o 3).val) :
    G5 upd mk k = G upd mk o := by
  have h3 : (o 3).val < 256 := (o 3).isLt
  have hs : (ix4 (n0 := 8) (n1 := 112) (n2 := 112) (n3 := 256) ⟨(k 0).val, (k 0).isLt⟩ ⟨(k 1).val, (k 1).isLt⟩
      ⟨(k 3).val, (k 3).isLt⟩ ⟨(k 4).val % 256, Nat.mod_lt _ (by norm_num)⟩ : SIn.Idx) = srcOf o := by
    funext a
    match a with
    | ⟨0, _⟩ => exact Fin.ext e0
    | ⟨1, _⟩ => exact Fin.ext e1
    | ⟨2, _⟩ => exact Fin.ext e3
    | ⟨3, _⟩ => exact Fin.ext (by show (k 4).val % 256 = (o 3).val; omega)
  have e5 : (k 4).val / 256 = (o 2).val % 2 := by omega
  unfold G5 G
  simp only []
  rw [hs, e2, e5]

/-- The five-axis form re-read row-major as four axes is `G`. -/
theorem shapeCast_G5 (upd : SIn.Idx → EReal) (mk : IVec SIn 32) (h : S8x112x2x112x512.ShapeCasts S8x224x224x256) :
    shapeCast S8x224x224x256 (G5 upd mk) h = G upd mk := by
  funext o
  have h0 : (o 0).val < 8 := (o 0).isLt
  have h1 : (o 1).val < 224 := (o 1).isLt
  have h2 : (o 2).val < 224 := (o 2).isLt
  have h3 : (o 3).val < 256 := (o 3).isLt
  -- the five-axis index with the same row-major position as o
  refine (shapeCast_apply (G5 upd mk) h o
    (ix5 (n0 := 8) (n1 := 112) (n2 := 2) (n3 := 112) (n4 := 512) ⟨(o 0).val, h0⟩ ⟨(o 1).val / 2, by omega⟩
      ⟨(o 1).val % 2, by omega⟩ ⟨(o 2).val / 2, by omega⟩ ⟨(o 2).val % 2 * 256 + (o 3).val, by omega⟩)
    (by rw [Shape.rowMajor_val_five, Shape.rowMajor_val_four]
        show (((((o 0).val * 112 + (o 1).val / 2) * 2 + (o 1).val % 2) * 112 + (o 2).val / 2) * 512
            + ((o 2).val % 2 * 256 + (o 3).val)) = (((o 0).val * 224 + (o 1).val) * 224 + (o 2).val) * 256 + (o 3).val
        omega)).trans ?_
  exact G5_at upd mk o _ rfl rfl rfl rfl rfl

/-- On every device, from any memory with zero counters whose index array points every cell inside its own window: every
    weakly fair execution of @main terminates with the result at `G` of the arguments and the arguments unchanged. -/
theorem run (m : (ℓ : Loc nD τ sig) → Buf (Elt Ideal) ℓ) (ρ : Dev nD → PrngReg)
    (hok : ∀ c : Dev nD, MaskOk (m ((c.tc : Thread nD τ).loc main_arg1))) :
    θ_run defs (onTc (τ := τ) (main (F := Ideal))) ⟨m, fun _ => 0, ρ⟩ fun r => ∀ c : Dev nD,
      r.2.mem ((c.tc : Thread nD τ).loc main_v1)
        = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · -- the result buffer bypasses the region: it is unscoped and no window's array
    have hmem : main_v1 ∈ Pipeline.restRefs sig (cfgs 0).spec :=
      Pipeline.mem_restRefs_of main_v1 rfl (by decide)
    have hok' : MaskOk (maskArr m c) := by
      show MaskOk (V m c main_arg1)
      rw [V_main_arg1]
      exact hok c
    -- what the region leaves in the five-axis array
    have hA : (withArrays (cfgs 0).spec c (V0 m c) (fun w => (dats m 0 c).arrAt w (cfgs 0).N) (Proc.devRef .tc main_v0)
        : S8x112x2x112x512.Idx → EReal) = G5 (updArr m c) (maskArr m c) :=
      (Pipeline.withArrays_arr spec0 launch0.win.arr_inj c _ _ 2).trans (final5 m c hok')
    refine ((h c).2 main_v1 hmem).trans ?_
    unfold Pipeline.afterTail₀
    show StableHlo.after hostOps1 _ (Proc.devRef .tc main_v1) = _
    after_results
    funext i
    show shapeCast S8x224x224x256 (withArrays (cfgs 0).spec c (V0 m c) (fun w => (dats m 0 c).arrAt w (cfgs 0).N) (Proc.devRef .tc main_v0)
        : S8x112x2x112x512.Idx → EReal) shapeCasts_S8x112x2x112x512_S8x224x224x256 i = _
    rw [hA, shapeCast_G5]
    show G (V m c main_arg0) (V m c main_arg1) i = _
    rw [V_main_arg0, V_main_arg1]
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.UnpoolValue

end
-- ==== Proof.RefTerm.lean ====
/-
  The reference's index computation as pure terms: from the index array `mk`, the four-component scatter index of
  every cell — batch (an iota), output row `mk // (224 * 256)`, output column `(mk // 256) % 224`, channel (an iota) —,
  each component wrapped once if negative, as the indexed update does. `floorDiv` and `pyMod` are the two outlined
  integer functions (division rounding down, remainder with the divisor's sign), operation by operation.
-/
import proofs.«416945_j54709293416957_2_alg».proof.ReferenceIdeal
import proofs.«416945_j54709293416957_2_alg».proof.Proof.Spec

noncomputable section

namespace Cert.ReferenceIdeal.UnpoolRef

open Idealize.ShloMosaic Cert.ReferenceIdeal
open Cert.ReferenceIdeal.Facts₀ Cert.ReferenceIdeal.Facts

variable [Cert.ReferenceIdeal.Facts]

/-- A scalar constant spread over the pooled shape. -/
abbrev spread (c : IVec S_ 32) : IVec S8x112x112x256 32 := broadcastInDim S8x112x112x256 ![] bcast_S_S8x112x112x256 c

/-- Division rounding down, of every word of `x` by the scalar `c`: the truncated quotient, less one where the signs
    differ and the remainder is not zero. -/
def floorDiv (x : IVec S8x112x112x256 32) (c : IVec S_ 32) : IVec S8x112x112x256 32 :=
  let v0 : IVec S_ 32 := id c
  let v1 : IVec S8x112x112x256 32 := spread v0
  let v2 : IVec S8x112x112x256 32 := Host.divsi x v1
  let v3 : IVec S8x112x112x256 32 := signi x
  let v4 : IVec S_ 32 := signi v0
  let v5 : IVec S8x112x112x256 32 := spread v4
  let v6 : IVec S8x112x112x256 1 := cmpi .ne v3 v5
  let v7 : IVec S8x112x112x256 32 := spread v0
  let v8 : IVec S8x112x112x256 32 := Host.remsi x v7
  let v9 : IVec S8x112x112x256 32 := spread (constantI S_ 32 0#32)
  let v10 : IVec S8x112x112x256 1 := cmpi .ne v8 v9
  let v11 : IVec S8x112x112x256 1 := andi v6 v10
  let v12 : IVec S8x112x112x256 32 := spread (constantI S_ 32 1#32)
  let v13 : IVec S8x112x112x256 32 := subi v2 v12
  select v11 v13 v2

/-- Remainder with the divisor's sign, of every word of `x` by the scalar `c` (a zero divisor replaced by one). -/
def pyMod (x : IVec S8x112x112x256 32) (c : IVec S_ 32) : IVec S8x112x112x256 32 :=
  let v0 : IVec S_ 32 := id c
  let v1 : IVec S_ 1 := cmpi .eq v0 (constantI S_ 32 0#32)
  let v2 : IVec S_ 32 := select v1 (constantI S_ 32 1#32) v0
  let v3 : IVec S8x112x112x256 32 := spread v2
  let v4 : IVec S8x112x112x256 32 := Host.remsi x v3
  let v5 : IVec S8x112x112x256 32 := spread (constantI S_ 32 0#32)
  let v6 : IVec S8x112x112x256 1 := cmpi .ne v4 v5
  let v7 : IVec S8x112x112x256 32 := spread (constantI S_ 32 0#32)
  let v8 : IVec S8x112x112x256 1 := cmpi .slt v4 v7
  let v9 : IVec S_ 1 := cmpi .slt v2 (constantI S_ 32 0#32)
  let v10 : IVec S8x112x112x256 1 := broadcastInDim S8x112x112x256 ![] bcast_S_S8x112x112x256 v9
  let v11 : IVec S8x112x112x256 1 := cmpi .ne v8 v10
  let v12 : IVec S8x112x112x256 1 := andi v11 v6
  let v13 : IVec S8x112x112x256 32 := spread v2
  let v14 : IVec S8x112x112x256 32 := addi v4 v13
  select v12 v14 v4

/-- A component wrapped once if negative: `x < 0 ? x + n : x`. -/
def wrapNeg (x : IVec S8x112x112x256 32) (n : BitVec 32) : IVec S8x112x112x256 32 :=
  select (cmpi .slt x (spread (constantI S_ 32 0#32))) (addi x (spread (constantI S_ 32 n))) x

/-- The output row of every cell: `mk // 57344`. -/
def rowOf (mk : IVec S8x112x112x256 32) : IVec S8x112x112x256 32 := floorDiv mk (constantI S_ 32 57344#32)
/-- The output column of every cell: `(mk // 256) % 224`. -/
def colOf (mk : IVec S8x112x112x256 32) : IVec S8x112x112x256 32 :=
  pyMod (floorDiv mk (constantI S_ 32 256#32)) (constantI S_ 32 224#32)

/-- The batch component: the batch coordinate, wrapped if negative, spread over the pooled shape. -/
def batchComp : IVec S8x112x112x256 32 :=
  let v3 : IVec S8 32 := iotaInDim S8 32 0
  let v4 : IVec S8x1x1x1 32 := broadcastInDim S8x1x1x1 ![0] bcast_S8_S8x1x1x1_0 v3
  let v8 : IVec S8x1x1x1 32 := broadcastInDim S8x1x1x1 ![] bcast_S_S8x1x1x1 (constantI S_ 32 0#32)
  let v9 : IVec S8x1x1x1 1 := cmpi .slt v4 v8
  let v10 : IVec S8x1x1x1 32 := broadcastInDim S8x1x1x1 ![] bcast_S_S8x1x1x1 (constantI S_ 32 8#32)
  let v11 : IVec S8x1x1x1 32 := addi v4 v10
  let v12 : IVec S8x1x1x1 32 := select v9 v11 v4
  broadcastInDim S8x112x112x256 ![0, 1, 2, 3] bcast_S8x1x1x1_S8x112x112x256_0_1_2_3 v12

/-- The channel component: the channel coordinate, wrapped if negative, spread over the pooled shape. -/
def chanComp : IVec S8x112x112x256 32 :=
  let v5 : IVec S256 32 := iotaInDim S256 32 0
  let v6 : IVec S1x1x1x256 32 := broadcastInDim S1x1x1x256 ![3] bcast_S256_S1x1x1x256_3 v5
  let v23 : IVec S1x1x1x256 32 := broadcastInDim S1x1x1x256 ![] bcast_S_S1x1x1x256 (constantI S_ 32 0#32)
  let v24 : IVec S1x1x1x256 1 := cmpi .slt v6 v23
  let v25 : IVec S1x1x1x256 32 := broadcastInDim S1x1x1x256 ![] bcast_S_S1x1x1x256 (constantI S_ 32 256#32)
  let v26 : IVec S1x1x1x256 32 := addi v6 v25
  let v27 : IVec S1x1x1x256 32 := select v24 v26 v6
  broadcastInDim S8x112x112x256 ![0, 1, 2, 3] bcast_S1x1x1x256_S8x112x112x256_0_1_2_3 v27

/-- One component as the last-axis slab of extent one. -/
abbrev slab (x : IVec S8x112x112x256 32) : IVec S8x112x112x256x1 32 :=
  broadcastInDim S8x112x112x256x1 ![0, 1, 2, 3] bcast_S8x112x112x256_S8x112x112x256x1_0_1_2_3 x

/-- The scatter indices: per cell the four components batch, row, column, channel along the last axis. -/
def refIdx (mk : IVec S8x112x112x256 32) : IVec S8x112x112x256x4 32 :=
  concatenate S8x112x112x256x4 4 [⟨S8x112x112x256x1, slab batchComp⟩, ⟨S8x112x112x256x1, slab (wrapNeg (rowOf mk) 224#32)⟩,
    ⟨S8x112x112x256x1, slab (wrapNeg (colOf mk) 224#32)⟩, ⟨S8x112x112x256x1, slab chanComp⟩]
    concatenates_S8x112x112x256x1_S8x112x112x256x1_S8x112x112x256x1_S8x112x112x256x1_S8x112x112x256x4_d4

/-- The zero array the updates are added into. -/
def zeros {F : FTy → Type} [FloatOps F] : FVec F S8x224x224x256 .f32 :=
  broadcastInDim S8x224x224x256 ![] bcast_S_S8x224x224x256 (constant S_ .f32 0x00000000#32)

/-- The reference's result as a term of its two arguments. -/
def refOut {F : FTy → Type} [FloatOps F] (upd : FVec F S8x112x112x256 .f32) (mk : IVec S8x112x112x256 32) : FVec F S8x224x224x256 .f32 :=
  Host.scatterAdd scatter_S8x224x224x256_S8x112x112x256x4_S8x112x112x256_n_0123_0123_4 zeros (refIdx mk) upd

end Cert.ReferenceIdeal.UnpoolRef

end
-- ==== Proof.RefRun.lean ====
/-
  The reference program's run read back: every weakly fair execution of its @main terminates with the result buffer at
  `refOut` of the two arguments — the zero array with every cell's pooled value added at the position its four index
  components name (`refIdx`) — and the arguments unchanged. @main is a straight line of host operations; the two
  outlined integer functions (division rounding down, remainder with the divisor's sign) are listed at their call sites
  over their calls' buffers.
-/
import proofs.«416945_j54709293416957_2_alg».proof.Proof.Gen.ReferenceIdeal
import proofs.«416945_j54709293416957_2_alg».proof.Proof.RefTerm
import Idealize.ShloMosaic.Lib.StableHlo.Run

noncomputable section

namespace Cert.ReferenceIdeal.UnpoolRef

open Cert.ReferenceIdeal Cert.ReferenceIdeal.Gen Idealize.ShloMosaic Idealize.ShloMosaic.TcCoe Idealize.SL.Sem Idealize.ShloMosaic.StableHlo

variable {F : FTy → Type} [FloatOps F]

/-- The first ninety-eight of @main's hundred operations, in order: the divisor 57344 and the seventeen of the first
    division rounding down (its select listed last, into the row buffer); the divisor 256 and the seventeen of the
    second; the modulus 224 and the twenty-one of the remainder (the scalar select of a zero divisor fifth); then forty of
    @main's own — the two coordinate iotas, the zero array, the four wraps of a negative component and the four slabs. -/
private abbrev opsIdx : List (HloOp τ sig (Elt F)) :=
  [ nullary main_c (constantI S_ 32 57344#32),
    TRef.unary (.of main_c : TRef sig ⟨S_, .i32⟩) main_call0.v0 id,
    TRef.unary main_call0.v0 main_call0.v1 (broadcastInDim S8x112x112x256 ![] bcast_S_S8x112x112x256),
    TRef.binary (.of main_arg1 : TRef sig ⟨S8x112x112x256, .i32⟩) main_call0.v1 main_call0.v2 Host.divsi,
    TRef.unary (.of main_arg1 : TRef sig ⟨S8x112x112x256, .i32⟩) main_call0.v3 signi,
    TRef.unary main_call0.v0 main_call0.v4 signi,
    TRef.unary main_call0.v4 main_call0.v5 (broadcastInDim S8x112x112x256 ![] bcast_S_S8x112x112x256),
    TRef.binary main_call0.v3 main_call0.v5 main_call0.v6 (cmpi .ne),
    TRef.unary main_call0.v0 main_call0.v7 (broadcastInDim S8x112x112x256 ![] bcast_S_S8x112x112x256),
    TRef.binary (.of main_arg1 : TRef sig ⟨S8x112x112x256, .i32⟩) main_call0.v7 main_call0.v8 Host.remsi,
    TRef.nullary main_call0.c (constantI S_ 32 0#32),
    TRef.unary main_call0.c main_call0.v9 (broadcastInDim S8x112x112x256 ![] bcast_S_S8x112x112x256),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S8x112x112x256 ![] bcast_S_S8x112x112x256),
    TRef.binary main_call0.v2 main_call0.v12 main_call0.v13 subi,
    TRef.ternary main_call0.v11 main_call0.v13 main_call0.v2 main_call0.call0.v0 select,
    nullary main_c_0 (constantI S_ 32 256#32),
    TRef.unary (.of main_c_0 : TRef sig ⟨S_, .i32⟩) main_call1.v0 id,
    TRef.unary main_call1.v0 main_call1.v1 (broadcastInDim S8x112x112x256 ![] bcast_S_S8x112x112x256),
    TRef.binary (.of main_arg1 : TRef sig ⟨S8x112x112x256, .i32⟩) main_call1.v1 main_call1.v2 Host.divsi,
    TRef.unary (.of main_arg1 : TRef sig ⟨S8x112x112x256, .i32⟩) main_call1.v3 signi,
    TRef.unary main_call1.v0 main_call1.v4 signi,
    TRef.unary main_call1.v4 main_call1.v5 (broadcastInDim S8x112x112x256 ![] bcast_S_S8x112x112x256),
    TRef.binary main_call1.v3 main_call1.v5 main_call1.v6 (cmpi .ne),
    TRef.unary main_call1.v0 main_call1.v7 (broadcastInDim S8x112x112x256 ![] bcast_S_S8x112x112x256),
    TRef.binary (.of main_arg1 : TRef sig ⟨S8x112x112x256, .i32⟩) main_call1.v7 main_call1.v8 Host.remsi,
    TRef.nullary main_call1.c (constantI S_ 32 0#32),
    TRef.unary main_call1.c main_call1.v9 (broadcastInDim S8x112x112x256 ![] bcast_S_S8x112x112x256),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S8x112x112x256 ![] bcast_S_S8x112x112x256),
    TRef.binary main_call1.v2 main_call1.v12 main_call1.v13 subi,
    TRef.ternary main_call1.v11 main_call1.v13 main_call1.v2 main_call1.call0.v0 select,
    nullary main_c_1 (constantI S_ 32 224#32),
    TRef.unary (.of main_c_1 : TRef sig ⟨S_, .i32⟩) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S8x112x112x256 ![] bcast_S_S8x112x112x256),
    TRef.binary (.of main_v1 : TRef sig ⟨S8x112x112x256, .i32⟩) main_call2.v3 main_call2.v4 Host.remsi,
    TRef.nullary main_call2.c_1 (constantI S_ 32 0#32),
    TRef.unary main_call2.c_1 main_call2.v5 (broadcastInDim S8x112x112x256 ![] bcast_S_S8x112x112x256),
    TRef.binary main_call2.v4 main_call2.v5 main_call2.v6 (cmpi .ne),
    TRef.nullary main_call2.c_2 (constantI S_ 32 0#32),
    TRef.unary main_call2.c_2 main_call2.v7 (broadcastInDim S8x112x112x256 ![] bcast_S_S8x112x112x256),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S8x112x112x256 ![] bcast_S_S8x112x112x256),
    TRef.binary main_call2.v8 main_call2.v10 main_call2.v11 (cmpi .ne),
    TRef.binary main_call2.v11 main_call2.v6 main_call2.v12 andi,
    TRef.unary main_call2.call0.v0 main_call2.v13 (broadcastInDim S8x112x112x256 ![] bcast_S_S8x112x112x256),
    TRef.binary main_call2.v4 main_call2.v13 main_call2.v14 addi,
    TRef.ternary main_call2.v12 main_call2.v14 main_call2.v4 main_call2.v15 select,
    nullary main_v3 (iotaInDim S8 32 0),
    unary main_v3 main_v4 (broadcastInDim S8x1x1x1 ![0] bcast_S8_S8x1x1x1_0 : (⟨S8, .i32⟩ : BufTy).Contents (Elt F) → (⟨S8x1x1x1, .i32⟩ : BufTy).Contents (Elt F)),
    nullary main_v5 (iotaInDim S256 32 0),
    unary main_v5 main_v6 (broadcastInDim S1x1x1x256 ![3] bcast_S256_S1x1x1x256_3 : (⟨S256, .i32⟩ : BufTy).Contents (Elt F) → (⟨S1x1x1x256, .i32⟩ : BufTy).Contents (Elt F)),
    nullary main_cst (constant S_ .f32 0x00000000#32),
    unary main_cst main_v7 (broadcastInDim S8x224x224x256 ![] bcast_S_S8x224x224x256 : (⟨S_, .f32⟩ : BufTy).Contents (Elt F) → (⟨S8x224x224x256, .f32⟩ : BufTy).Contents (Elt F)),
    nullary main_c_2 (constantI S_ 32 0#32),
    unary main_c_2 main_v8 (broadcastInDim S8x1x1x1 ![] bcast_S_S8x1x1x1 : (⟨S_, .i32⟩ : BufTy).Contents (Elt F) → (⟨S8x1x1x1, .i32⟩ : BufTy).Contents (Elt F)),
    binary main_v4 main_v8 main_v9 (cmpi .slt : (⟨S8x1x1x1, .i32⟩ : BufTy).Contents (Elt F) → (⟨S8x1x1x1, .i32⟩ : BufTy).Contents (Elt F) → (⟨S8x1x1x1, .i1⟩ : BufTy).Contents (Elt F)),
    nullary main_c_3 (constantI S_ 32 8#32),
    unary main_c_3 main_v10 (broadcastInDim S8x1x1x1 ![] bcast_S_S8x1x1x1 : (⟨S_, .i32⟩ : BufTy).Contents (Elt F) → (⟨S8x1x1x1, .i32⟩ : BufTy).Contents (Elt F)),
    binary main_v4 main_v10 main_v11 (addi : (⟨S8x1x1x1, .i32⟩ : BufTy).Contents (Elt F) → (⟨S8x1x1x1, .i32⟩ : BufTy).Contents (Elt F) → (⟨S8x1x1x1, .i32⟩ : BufTy).Contents (Elt F)),
    ternary main_v9 main_v11 main_v4 main_v12 (select : (⟨S8x1x1x1, .i1⟩ : BufTy).Contents (Elt F) → (⟨S8x1x1x1, .i32⟩ : BufTy).Contents (Elt F) → (⟨S8x1x1x1, .i32⟩ : BufTy).Contents (Elt F) → (⟨S8x1x1x1, .i32⟩ : BufTy).Contents (Elt F)),
    nullary main_c_4 (constantI S_ 32 0#32),
    unary main_c_4 main_v13 (broadcastInDim S8x112x112x256 ![] bcast_S_S8x112x112x256 : (⟨S_, .i32⟩ : BufTy).Contents (Elt F) → (⟨S8x112x112x256, .i32⟩ : BufTy).Contents (Elt F)),
    binary main_v0 main_v13 main_v14 (cmpi .slt : (⟨S8x112x112x256, .i32⟩ : BufTy).Contents (Elt F) → (⟨S8x112x112x256, .i32⟩ : BufTy).Contents (Elt F) → (⟨S8x112x112x256, .i1⟩ : BufTy).Contents (Elt F)),
    nullary main_c_5 (constantI S_ 32 224#32),
    unary main_c_5 main_v15 (broadcastInDim S8x112x112x256 ![] bcast_S_S8x112x112x256 : (⟨S_, .i32⟩ : BufTy).Contents (Elt F) → (⟨S8x112x112x256, .i32⟩ : BufTy).Contents (Elt F)),
    binary main_v0 main_v15 main_v16 (addi : (⟨S8x112x112x256, .i32⟩ : BufTy).Contents (Elt F) → (⟨S8x112x112x256, .i32⟩ : BufTy).Contents (Elt F) → (⟨S8x112x112x256, .i32⟩ : BufTy).Contents (Elt F)),
    ternary main_v14 main_v16 main_v0 main_v17 (select : (⟨S8x112x112x256, .i1⟩ : BufTy).Contents (Elt F) → (⟨S8x112x112x256, .i32⟩ : BufTy).Contents (Elt F) → (⟨S8x112x112x256, .i32⟩ : BufTy).Contents (Elt F) → (⟨S8x112x112x256, .i32⟩ : BufTy).Contents (Elt F)),
    nullary main_c_6 (constantI S_ 32 0#32),
    unary main_c_6 main_v18 (broadcastInDim S8x112x112x256 ![] bcast_S_S8x112x112x256 : (⟨S_, .i32⟩ : BufTy).Contents (Elt F) → (⟨S8x112x112x256, .i32⟩ : BufTy).Contents (Elt F)),
    binary main_v2 main_v18 main_v19 (cmpi .slt : (⟨S8x112x112x256, .i32⟩ : BufTy).Contents (Elt F) → (⟨S8x112x112x256, .i32⟩ : BufTy).Contents (Elt F) → (⟨S8x112x112x256, .i1⟩ : BufTy).Contents (Elt F)),
    nullary main_c_7 (constantI S_ 32 224#32),
    unary main_c_7 main_v20 (broadcastInDim S8x112x112x256 ![] bcast_S_S8x112x112x256 : (⟨S_, .i32⟩ : BufTy).Contents (Elt F) → (⟨S8x112x112x256, .i32⟩ : BufTy).Contents (Elt F)),
    binary main_v2 main_v20 main_v21 (addi : (⟨S8x112x112x256, .i32⟩ : BufTy).Contents (Elt F) → (⟨S8x112x112x256, .i32⟩ : BufTy).Contents (Elt F) → (⟨S8x112x112x256, .i32⟩ : BufTy).Contents (Elt F)),
    ternary main_v19 main_v21 main_v2 main_v22 (select : (⟨S8x112x112x256, .i1⟩ : BufTy).Contents (Elt F) → (⟨S8x112x112x256, .i32⟩ : BufTy).Contents (Elt F) → (⟨S8x112x112x256, .i32⟩ : BufTy).Contents (Elt F) → (⟨S8x112x112x256, .i32⟩ : BufTy).Contents (Elt F)),
    nullary main_c_8 (constantI S_ 32 0#32),
    unary main_c_8 main_v23 (broadcastInDim S1x1x1x256 ![] bcast_S_S1x1x1x256 : (⟨S_, .i32⟩ : BufTy).Contents (Elt F) → (⟨S1x1x1x256, .i32⟩ : BufTy).Contents (Elt F)),
    binary main_v6 main_v23 main_v24 (cmpi .slt : (⟨S1x1x1x256, .i32⟩ : BufTy).Contents (Elt F) → (⟨S1x1x1x256, .i32⟩ : BufTy).Contents (Elt F) → (⟨S1x1x1x256, .i1⟩ : BufTy).Contents (Elt F)),
    nullary main_c_9 (constantI S_ 32 256#32),
    unary main_c_9 main_v25 (broadcastInDim S1x1x1x256 ![] bcast_S_S1x1x1x256 : (⟨S_, .i32⟩ : BufTy).Contents (Elt F) → (⟨S1x1x1x256, .i32⟩ : BufTy).Contents (Elt F)),
    binary main_v6 main_v25 main_v26 (addi : (⟨S1x1x1x256, .i32⟩ : BufTy).Contents (Elt F) → (⟨S1x1x1x256, .i32⟩ : BufTy).Contents (Elt F) → (⟨S1x1x1x256, .i32⟩ : BufTy).Contents (Elt F)),
    ternary main_v24 main_v26 main_v6 main_v27 (select : (⟨S1x1x1x256, .i1⟩ : BufTy).Contents (Elt F) → (⟨S1x1x1x256, .i32⟩ : BufTy).Contents (Elt F) → (⟨S1x1x1x256, .i32⟩ : BufTy).Contents (Elt F) → (⟨S1x1x1x256, .i32⟩ : BufTy).Contents (Elt F)),
    unary main_v12 main_v28 (broadcastInDim S8x112x112x256 ![0, 1, 2, 3] bcast_S8x1x1x1_S8x112x112x256_0_1_2_3 : (⟨S8x1x1x1, .i32⟩ : BufTy).Contents (Elt F) → (⟨S8x112x112x256, .i32⟩ : BufTy).Contents (Elt F)),
    unary main_v27 main_v29 (broadcastInDim S8x112x112x256 ![0, 1, 2, 3] bcast_S1x1x1x256_S8x112x112x256_0_1_2_3 : (⟨S1x1x1x256, .i32⟩ : BufTy).Contents (Elt F) → (⟨S8x112x112x256, .i32⟩ : BufTy).Contents (Elt F)),
    unary main_v28 main_v30 (broadcastInDim S8x112x112x256x1 ![0, 1, 2, 3] bcast_S8x112x112x256_S8x112x112x256x1_0_1_2_3 : (⟨S8x112x112x256, .i32⟩ : BufTy).Contents (Elt F) → (⟨S8x112x112x256x1, .i32⟩ : BufTy).Contents (Elt F)),
    unary main_v17 main_v31 (broadcastInDim S8x112x112x256x1 ![0, 1, 2, 3] bcast_S8x112x112x256_S8x112x112x256x1_0_1_2_3 : (⟨S8x112x112x256, .i32⟩ : BufTy).Contents (Elt F) → (⟨S8x112x112x256x1, .i32⟩ : BufTy).Contents (Elt F)),
    unary main_v22 main_v32 (broadcastInDim S8x112x112x256x1 ![0, 1, 2, 3] bcast_S8x112x112x256_S8x112x112x256x1_0_1_2_3 : (⟨S8x112x112x256, .i32⟩ : BufTy).Contents (Elt F) → (⟨S8x112x112x256x1, .i32⟩ : BufTy).Contents (Elt F)),
    unary main_v29 main_v33 (broadcastInDim S8x112x112x256x1 ![0, 1, 2, 3] bcast_S8x112x112x256_S8x112x112x256x1_0_1_2_3 : (⟨S8x112x112x256, .i32⟩ : BufTy).Contents (Elt F) → (⟨S8x112x112x256x1, .i32⟩ : BufTy).Contents (Elt F)) ]

/-- The last two: the concatenation of the four slabs along the last axis and the indexed addition into the zero array. -/
private abbrev opsOut : List (HloOp τ sig (Elt F)) :=
  [ nary ![main_v30, main_v31, main_v32, main_v33] main_v34 (fun u => concatenate S8x112x112x256x4 4 [⟨S8x112x112x256x1, u 0⟩, ⟨S8x112x112x256x1, u 1⟩, ⟨S8x112x112x256x1, u 2⟩, ⟨S8x112x112x256x1, u 3⟩] concatenates_S8x112x112x256x1_S8x112x112x256x1_S8x112x112x256x1_S8x112x112x256x1_S8x112x112x256x4_d4),
    ternary main_v7 main_v34 main_arg0 main_v35 ((fun x i u => Host.scatterAdd scatter_S8x224x224x256_S8x112x112x256x4_S8x112x112x256_n_0123_0123_4 x i u) : (⟨S8x224x224x256, .f32⟩ : BufTy).Contents (Elt F) → (⟨S8x112x112x256x4, .i32⟩ : BufTy).Contents (Elt F) → (⟨S8x112x112x256, .f32⟩ : BufTy).Contents (Elt F) → (⟨S8x224x224x256, .f32⟩ : BufTy).Contents (Elt F)) ]

/-- @main's hundred operations, in order. -/
private abbrev ops : List (HloOp τ sig (Elt F)) := opsIdx ++ opsOut

/-- @main is that straight line: the two functions' definitions unfolded at their calls and the records at their fields,
    both sides are one chain of operation steps, by computation. -/
private theorem main_eq (c : Dev nD) : main (F := F) c = seq ops := rfl

private theorem scopedRefs_eq : (Finset.univ.filter fun b : Ref sig .tc => b.isScoped) = ∅ := by decide
private theorem scopedSems_eq : (Finset.univ.filter fun sm : SemLoc sig => sm.isScoped .tc) = ∅ := by decide

/-- A line run after another: the second's fold from the first's. -/
private theorem after_concat (l₁ l₂ : List (HloOp τ sig (Elt F))) (V : Valuation τ sig (Elt F)) :
    after (l₁ ++ l₂) V = after l₂ (after l₁ V) := by
  induction l₁ generalizing V with
  | nil => rfl
  | cons op l ih => exact ih _

private theorem opsIdx_sub : (opsIdx : List (HloOp τ sig (Elt F))).Forall fun op => op.bufs ⊆ tcRefs τ sig :=
  ⟨nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    nullary_bufs_sub .., unary_bufs_sub .., nullary_bufs_sub .., unary_bufs_sub .., nullary_bufs_sub .., unary_bufs_sub ..,
    nullary_bufs_sub .., unary_bufs_sub .., binary_bufs_sub .., nullary_bufs_sub .., unary_bufs_sub .., binary_bufs_sub ..,
    ternary_bufs_sub ..,
    nullary_bufs_sub .., unary_bufs_sub .., binary_bufs_sub .., nullary_bufs_sub .., unary_bufs_sub .., binary_bufs_sub ..,
    ternary_bufs_sub ..,
    nullary_bufs_sub .., unary_bufs_sub .., binary_bufs_sub .., nullary_bufs_sub .., unary_bufs_sub .., binary_bufs_sub ..,
    ternary_bufs_sub ..,
    nullary_bufs_sub .., unary_bufs_sub .., binary_bufs_sub .., nullary_bufs_sub .., unary_bufs_sub .., binary_bufs_sub ..,
    ternary_bufs_sub ..,
    unary_bufs_sub .., unary_bufs_sub .., unary_bufs_sub .., unary_bufs_sub .., unary_bufs_sub .., unary_bufs_sub ..⟩

private theorem opsOut_sub : (opsOut : List (HloOp τ sig (Elt F))).Forall fun op => op.bufs ⊆ tcRefs τ sig :=
  ⟨nary_bufs_sub .., ternary_bufs_sub ..⟩

private theorem ops_sub : (ops : List (HloOp τ sig (Elt F))).Forall fun op => op.bufs ⊆ tcRefs τ sig :=
  List.forall_iff_forall_mem.mpr fun op h => (List.mem_append.mp h).elim
    (List.forall_iff_forall_mem.mp opsIdx_sub op) (List.forall_iff_forall_mem.mp opsOut_sub op)

/-! The first ninety-eight operations' results at the buffers the last two read: each operation's result at its own
    buffer is its function's value and at any other buffer what was there; the composed term is the pure one by
    computation. -/

private theorem idx_v7 (V : Valuation τ sig (Elt F)) : after opsIdx V (main_v7 : DevRef τ sig) = zeros (F := F) := by
  after_results_simp
  rfl

private theorem idx_v30 (V : Valuation τ sig (Elt F)) : after opsIdx V (main_v30 : DevRef τ sig) = slab batchComp := by
  after_results_simp
  rfl

private theorem idx_v31 (V : Valuation τ sig (Elt F)) :
    after opsIdx V (main_v31 : DevRef τ sig) = slab (wrapNeg (rowOf (V (main_arg1 : DevRef τ sig))) 224#32) := by
  after_results_simp
  rfl

-- the remainder's term holds the division's under it, each read several times over: the comparison by computation is long
set_option maxHeartbeats 1000000 in
private theorem idx_v32 (V : Valuation τ sig (Elt F)) :
    after opsIdx V (main_v32 : DevRef τ sig) = slab (wrapNeg (colOf (V (main_arg1 : DevRef τ sig))) 224#32) := by
  after_results_simp
  rfl

private theorem idx_v33 (V : Valuation τ sig (Elt F)) : after opsIdx V (main_v33 : DevRef τ sig) = slab chanComp := by
  after_results_simp
  rfl

private theorem idx_arg0 (V : Valuation τ sig (Elt F)) :
    after opsIdx V (main_arg0 : DevRef τ sig) = V (main_arg0 : DevRef τ sig) := by
  after_results_simp

private theorem idx_arg1 (V : Valuation τ sig (Elt F)) :
    after opsIdx V (main_arg1 : DevRef τ sig) = V (main_arg1 : DevRef τ sig) := by
  after_results_simp

/-- The last two operations from any contents: the indexed addition into the zero array's buffer at the concatenation of
    the four slab buffers, of the first argument's. -/
private theorem out_of (W : Valuation τ sig (Elt F)) :
    after opsOut W (main_v35 : DevRef τ sig)
      = Host.scatterAdd scatter_S8x224x224x256_S8x112x112x256x4_S8x112x112x256_n_0123_0123_4 (W (main_v7 : DevRef τ sig))
          (concatenate S8x112x112x256x4 4
            [⟨S8x112x112x256x1, (W (main_v30 : DevRef τ sig) : IVec S8x112x112x256x1 32)⟩,
             ⟨S8x112x112x256x1, (W (main_v31 : DevRef τ sig) : IVec S8x112x112x256x1 32)⟩,
             ⟨S8x112x112x256x1, (W (main_v32 : DevRef τ sig) : IVec S8x112x112x256x1 32)⟩,
             ⟨S8x112x112x256x1, (W (main_v33 : DevRef τ sig) : IVec S8x112x112x256x1 32)⟩]
            concatenates_S8x112x112x256x1_S8x112x112x256x1_S8x112x112x256x1_S8x112x112x256x1_S8x112x112x256x4_d4)
          (W (main_arg0 : DevRef τ sig)) := by
  after_results
  rfl

private theorem out_arg0 (W : Valuation τ sig (Elt F)) :
    after opsOut W (main_arg0 : DevRef τ sig) = W (main_arg0 : DevRef τ sig) := by
  after_results

private theorem out_arg1 (W : Valuation τ sig (Elt F)) :
    after opsOut W (main_arg1 : DevRef τ sig) = W (main_arg1 : DevRef τ sig) := by
  after_results

/-- The result buffer after the whole line: the indexed addition of the first argument into the zero array at the
    concatenation of the four slabs. -/
private theorem out_eq (V : Valuation τ sig (Elt F)) :
    after ops V (main_v35 : DevRef τ sig)
      = refOut (F := F) (V (main_arg0 : DevRef τ sig)) (V (main_arg1 : DevRef τ sig)) := by
  rw [after_concat, out_of, idx_v7, idx_v30, idx_v31, idx_v32, idx_v33, idx_arg0]
  rfl

private theorem arg0_eq (V : Valuation τ sig (Elt F)) :
    after ops V (main_arg0 : DevRef τ sig) = V (main_arg0 : DevRef τ sig) := by
  rw [after_concat, out_arg0, idx_arg0]

private theorem arg1_eq (V : Valuation τ sig (Elt F)) :
    after ops V (main_arg1 : DevRef τ sig) = V (main_arg1 : DevRef τ sig) := by
  rw [after_concat, out_arg1, idx_arg1]

/-- On every device, for any float values, from any memory with zero counters: every weakly fair execution of @main
    terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
        = refOut (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.UnpoolRef

end
-- ==== Proof.ScatterRead.lean ====
/-
  The reference's accumulating scatter read at one output position.

  The scatter has four index components per cell (all four operand axes are addressed, no window axes), so the update of
  cell `s` lands at the operand position whose coordinates are the four signed components read at `s`, and is dropped
  when a component is out of range. The result at `o` is therefore the operand at `o` plus the sum of the updates of
  the cells whose components are exactly `o`'s coordinates (`scatterAdd_apply`).

  When the components of cell `s` are (batch of s, R s, C s, channel of s) with R s / 2 the cell's row and C s / 2 its
  column, a cell that lands at `o = (b, Y, X, c)` has batch b, channel c, row Y / 2 and column X / 2: it can only be
  `srcOf o`, and it does land there exactly when R and C of it are Y and X. The sum has at most that one term
  (`scatterAdd_single`).
-/
import proofs.«416945_j54709293416957_2_alg».proof.ReferenceIdeal
import proofs.«416945_j54709293416957_2_alg».proof.Proof.Spec
import Idealize.ShloMosaic.PureOps.Ideal
import Idealize.ShloMosaic.Lib.ValueIdx

noncomputable section

namespace Cert.ReferenceIdeal.UnpoolRef

open Idealize.ShloMosaic Idealize.ShloMosaic.ValueIdx Cert.ReferenceIdeal Cert.Unpool
open scoped BigOperators

variable [Cert.ReferenceIdeal.Facts]

/-- Where component `a` of cell `s` sits in the index array: the cell's coordinates, then `a` on the last axis. -/
def compIx (s : S8x112x112x256.Idx) (a : Fin 4) : S8x112x112x256x4.Idx :=
  ix5 (n0 := 8) (n1 := 112) (n2 := 112) (n3 := 256) (n4 := 4) ⟨(s 0).val, (s 0).isLt⟩ ⟨(s 1).val, (s 1).isLt⟩
    ⟨(s 2).val, (s 2).isLt⟩ ⟨(s 3).val, (s 3).isLt⟩ a

/-- A statement about the four operand axes holds once it holds at each of them. -/
private theorem fin4_cases {P : Fin 4 → Prop} (h0 : P 0) (h1 : P 1) (h2 : P 2) (h3 : P 3) : ∀ a, P a := by
  intro a
  match a with
  | ⟨0, _⟩ => exact h0
  | ⟨1, _⟩ => exact h1
  | ⟨2, _⟩ => exact h2
  | ⟨3, _⟩ => exact h3

/-- No operand axis is a window axis (all four are inserted), so the window coordinate is zero on every axis. -/
private theorem window_zero (s : S8x112x112x256.Idx) (a : Fin 4) :
    ScatterDims.window scatter_S8x224x224x256_S8x112x112x256x4_S8x112x112x256_n_0123_0123_4 s a = 0 := by
  unfold ScatterDims.window
  rw [dif_neg]
  have : ∀ a : Fin 4, a ∉ (List.finRange 4).filter (· ∉ ([0, 1, 2, 3] : List (Fin 4))) := by decide
  exact this a

/-- Component `c` of cell `s`'s start index is read at the cell's own coordinates with `c` on the last axis: the
    update's scatter axes are its four axes, in the order of the index array's first four. -/
private theorem siIdx_eq (s : S8x112x112x256.Idx) (c : Fin 4) :
    ScatterDims.siIdx scatter_S8x224x224x256_S8x112x112x256x4_S8x112x112x256_n_0123_0123_4 s c = compIx s c := by
  funext b
  match b with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl

/-- Operand axis `a` is addressed by component `a` (the map from components to operand axes is the identity), so the
    window's start on it is that component of the cell, read signed. -/
private theorem start_eq (s : S8x112x112x256.Idx) (idx : IVec S8x112x112x256x4 32) (a : Fin 4) :
    ScatterDims.start scatter_S8x224x224x256_S8x112x112x256x4_S8x112x112x256_n_0123_0123_4 s idx a = (idx (compIx s a)).toInt := by
  have hm : ∀ a : Fin 4, a ∈ ([0, 1, 2, 3] : List (Fin 4)) := by decide
  have hi : ∀ a : Fin 4, List.idxOf a ([0, 1, 2, 3] : List (Fin 4)) = a.val := by decide
  have ha : a ∈ ScatterDims.scatterDimsToOperandDims scatter_S8x224x224x256_S8x112x112x256x4_S8x112x112x256_n_0123_0123_4 := hm a
  unfold ScatterDims.start
  rw [dif_pos ha]
  exact congrArg (fun j => (idx j).toInt) ((siIdx_eq s _).trans (congrArg (compIx s) (Fin.ext (hi a))))

/-- Cell `s` lands at `o` exactly when its four signed components are `o`'s coordinates: in range they are the
    landing position's coordinates, and out of range the update is dropped while `o`'s coordinates are in range. -/
private theorem resultIdx_iff (s : S8x112x112x256.Idx) (idx : IVec S8x112x112x256x4 32) (o : S8x224x224x256.Idx) :
    ScatterDims.resultIdx? scatter_S8x224x224x256_S8x112x112x256x4_S8x112x112x256_n_0123_0123_4 s idx = some o ↔
      ((idx (compIx s 0)).toInt = ((o 0).val : ℤ) ∧ (idx (compIx s 1)).toInt = ((o 1).val : ℤ)
          ∧ (idx (compIx s 2)).toInt = ((o 2).val : ℤ) ∧ (idx (compIx s 3)).toInt = ((o 3).val : ℤ)) := by
  have b0 : (o 0).val < 8 := (o 0).isLt
  have b1 : (o 1).val < 224 := (o 1).isLt
  have b2 : (o 2).val < 224 := (o 2).isLt
  have b3 : (o 3).val < 256 := (o 3).isLt
  unfold ScatterDims.resultIdx?
  split
  · rename_i h
    have h0 := h 0
    have h1 := h 1
    have h2 := h 2
    have h3 := h 3
    simp only [start_eq, window_zero, Matrix.cons_val] at h0 h1 h2 h3
    constructor
    · intro hf
      have hf := Option.some.inj hf
      have e0 := congrArg Fin.val (congrFun hf 0)
      have e1 := congrArg Fin.val (congrFun hf 1)
      have e2 := congrArg Fin.val (congrFun hf 2)
      have e3 := congrArg Fin.val (congrFun hf 3)
      simp only [start_eq, window_zero] at e0 e1 e2 e3
      omega
    · rintro ⟨e0, e1, e2, e3⟩
      refine congrArg some (funext ?_)
      apply fin4_cases
      · apply Fin.ext; simp only [start_eq, window_zero]; omega
      · apply Fin.ext; simp only [start_eq, window_zero]; omega
      · apply Fin.ext; simp only [start_eq, window_zero]; omega
      · apply Fin.ext; simp only [start_eq, window_zero]; omega
  · rename_i h
    constructor
    · intro hf; exact absurd hf (by simp)
    · rintro ⟨e0, e1, e2, e3⟩
      exfalso; apply h
      apply fin4_cases
      · simp only [start_eq, window_zero, Matrix.cons_val]; omega
      · simp only [start_eq, window_zero, Matrix.cons_val]; omega
      · simp only [start_eq, window_zero, Matrix.cons_val]; omega
      · simp only [start_eq, window_zero, Matrix.cons_val]; omega

/-- The scatter at an output position: the operand there plus the updates of the cells whose four components, read as
    signed words, are the position's coordinates. -/
theorem scatterAdd_apply (x : FVec Ideal S8x224x224x256 .f32) (idx : IVec S8x112x112x256x4 32)
    (upd : FVec Ideal S8x112x112x256 .f32) (o : S8x224x224x256.Idx) :
    Host.scatterAdd (F := Ideal) scatter_S8x224x224x256_S8x112x112x256x4_S8x112x112x256_n_0123_0123_4 x idx upd o
      = x o + ∑ s ∈ Finset.univ.filter (fun s : S8x112x112x256.Idx =>
          (idx (compIx s 0)).toInt = ((o 0).val : ℤ) ∧ (idx (compIx s 1)).toInt = ((o 1).val : ℤ)
          ∧ (idx (compIx s 2)).toInt = ((o 2).val : ℤ) ∧ (idx (compIx s 3)).toInt = ((o 3).val : ℤ)), upd s := by
  show Ideal.hostScatterAdd scatter_S8x224x224x256_S8x112x112x256x4_S8x112x112x256_n_0123_0123_4 x idx upd o = _
  unfold Ideal.hostScatterAdd
  exact congrArg (x o + ·) (Finset.sum_congr (Finset.filter_congr fun s _ => resultIdx_iff s idx o) fun _ _ => rfl)

/-- With components (batch, R, C, channel) where R / 2 is the cell's row and C / 2 its column, at most one cell lands at
    an output position: the cell whose window holds it. -/
theorem scatterAdd_single (x : FVec Ideal S8x224x224x256 .f32) (idx : IVec S8x112x112x256x4 32)
    (upd : FVec Ideal S8x112x112x256 .f32) (R C : S8x112x112x256.Idx → ℕ)
    (h0 : ∀ s, (idx (compIx s 0)).toInt = ((s 0).val : ℤ)) (h1 : ∀ s, (idx (compIx s 1)).toInt = (R s : ℤ))
    (h2 : ∀ s, (idx (compIx s 2)).toInt = (C s : ℤ)) (h3 : ∀ s, (idx (compIx s 3)).toInt = ((s 3).val : ℤ))
    (hR : ∀ s, R s / 2 = (s 1).val) (hC : ∀ s, C s / 2 = (s 2).val) (o : S8x224x224x256.Idx) :
    Host.scatterAdd (F := Ideal) scatter_S8x224x224x256_S8x112x112x256x4_S8x112x112x256_n_0123_0123_4 x idx upd o
      = x o + (if R (srcOf o) = (o 1).val ∧ C (srcOf o) = (o 2).val then upd (srcOf o) else 0) := by
  have key : ∀ s : S8x112x112x256.Idx,
      ((idx (compIx s 0)).toInt = ((o 0).val : ℤ) ∧ (idx (compIx s 1)).toInt = ((o 1).val : ℤ)
        ∧ (idx (compIx s 2)).toInt = ((o 2).val : ℤ) ∧ (idx (compIx s 3)).toInt = ((o 3).val : ℤ)) →
      s = srcOf o ∧ R s = (o 1).val ∧ C s = (o 2).val := by
    rintro s ⟨e0, e1, e2, e3⟩
    rw [h0] at e0
    rw [h1] at e1
    rw [h2] at e2
    rw [h3] at e3
    have e0' : (s 0).val = (o 0).val := by exact_mod_cast e0
    have e1' : R s = (o 1).val := by exact_mod_cast e1
    have e2' : C s = (o 2).val := by exact_mod_cast e2
    have e3' : (s 3).val = (o 3).val := by exact_mod_cast e3
    refine ⟨?_, e1', e2'⟩
    have r := hR s
    have c := hC s
    funext a
    revert a
    apply fin4_cases
    · exact Fin.ext e0'
    · apply Fin.ext
      show (s 1).val = (o 1).val / 2
      omega
    · apply Fin.ext
      show (s 2).val = (o 2).val / 2
      omega
    · exact Fin.ext e3'
  rw [scatterAdd_apply]
  congr 1
  by_cases hc : R (srcOf o) = (o 1).val ∧ C (srcOf o) = (o 2).val
  · rw [if_pos hc]
    refine Finset.sum_eq_single_of_mem (srcOf o) ?_ ?_
    · rw [Finset.mem_filter]
      refine ⟨Finset.mem_univ _, ?_, ?_, ?_, ?_⟩
      · rw [h0]; rfl
      · rw [h1, hc.1]
      · rw [h2, hc.2]
      · rw [h3]; rfl
    · intro s hs hne
      exact absurd (key s (Finset.mem_filter.1 hs).2).1 hne
  · rw [if_neg hc]
    apply Finset.sum_eq_zero
    intro s hs
    obtain ⟨rfl, r, c⟩ := key s (Finset.mem_filter.1 hs).2
    exact absurd ⟨r, c⟩ hc

end Cert.ReferenceIdeal.UnpoolRef

end
-- ==== Proof.RefIdx.lean ====
/-
  The reference's scatter indices read one component at a time.

  At cell `s` the four components along the last axis are: the batch coordinate (an iota, wrapped if negative: it is
  not), the row word `rowW` of the cell's index word, the column word `colW` of it, and the channel coordinate. Each
  operation is pointwise or a re-indexing, so a component at a cell is the scalar function of the cell's index word.
-/
import proofs.«416945_j54709293416957_2_alg».proof.Proof.Gen.ReferenceIdeal
import proofs.«416945_j54709293416957_2_alg».proof.Proof.RefTerm
import proofs.«416945_j54709293416957_2_alg».proof.Proof.ScatterRead
import proofs.«416945_j54709293416957_2_alg».proof.Proof.WordDefs
import Idealize.ShloMosaic.Lib.Pipeline.Value
import Idealize.ShloMosaic.Lib.ValueIdx
import Idealize.ShloMosaic.Lib.IdealHost

noncomputable section

namespace Cert.ReferenceIdeal.UnpoolRef

open Cert.ReferenceIdeal Idealize.ShloMosaic Idealize.ShloMosaic.ValueIdx Cert.Unpool

variable [Cert.ReferenceIdeal.Facts]

/-! ## Each term read at a cell -/

/-- A component wrapped once if negative, at a cell: the word's wrap. -/
private theorem wrapNeg_apply (x : IVec S8x112x112x256 32) (n : BitVec 32) (s : S8x112x112x256.Idx) :
    wrapNeg x n s = wrapW (x s) n := rfl

/-- Division rounding down by a constant, at a cell: the word's. -/
private theorem floorDiv_apply (x : IVec S8x112x112x256 32) (c : BitVec 32) (s : S8x112x112x256.Idx) :
    floorDiv x (constantI S_ 32 c) s = floorDivW (x s) c := rfl

/-- Remainder with the divisor's sign by a constant, at a cell: the word's. -/
private theorem pyMod_apply (x : IVec S8x112x112x256 32) (c : BitVec 32) (s : S8x112x112x256.Idx) :
    pyMod x (constantI S_ 32 c) s = pyModW (x s) c := rfl

/-- The batch component at a cell. -/
private theorem batchComp_apply (s : S8x112x112x256.Idx) :
    batchComp s = wrapW (BitVec.ofNat 32 (s 0).val) 8#32 := rfl

/-- The channel component at a cell. -/
private theorem chanComp_apply (s : S8x112x112x256.Idx) :
    chanComp s = wrapW (BitVec.ofNat 32 (s 3).val) 256#32 := rfl

/-! ## The concatenation read at one component -/

/-- The index of a one-wide slab over a cell. -/
private abbrev slabIx (s : S8x112x112x256.Idx) : S8x112x112x256x1.Idx :=
  ix5 (n0 := 8) (n1 := 112) (n2 := 112) (n3 := 256) (n4 := 1) ⟨(s 0).val, (s 0).isLt⟩ ⟨(s 1).val, (s 1).isLt⟩
    ⟨(s 2).val, (s 2).isLt⟩ ⟨(s 3).val, (s 3).isLt⟩ ⟨0, Nat.one_pos⟩

/-- A one-wide slab over a cell is the component at the cell. -/
private theorem slab_apply (x : IVec S8x112x112x256 32) (s : S8x112x112x256.Idx) : slab x (slabIx s) = x s := by
  refine broadcastInDim_apply _ _ x (slabIx s) s ?_
  intro a
  match a with
  | ⟨0, _⟩ => rfl
  | ⟨1, _⟩ => rfl
  | ⟨2, _⟩ => rfl
  | ⟨3, _⟩ => rfl

/-- Off the last axis a slab's index and the component's index have the cell's coordinates. -/
private theorem slabIx_off (s : S8x112x112x256.Idx) (a : Fin 4) (b : Fin S8x112x112x256x1.rank)
    (hb : b.cast (rfl : S8x112x112x256x1.rank = S8x112x112x256x4.rank) ≠ (4 : Fin S8x112x112x256x4.rank)) :
    (slabIx s b).val = (compIx s a (b.cast (rfl : S8x112x112x256x1.rank = S8x112x112x256x4.rank))).val := by
  match b, hb with
  | ⟨0, _⟩, _ => rfl
  | ⟨1, _⟩, _ => rfl
  | ⟨2, _⟩, _ => rfl
  | ⟨3, _⟩, _ => rfl
  | ⟨4, _⟩, hb => exact absurd rfl hb

/-- The batch component is the batch coordinate as a word. -/
theorem refIdx_comp0 (mk : IVec S8x112x112x256 32) (s : S8x112x112x256.Idx) :
    refIdx mk (compIx s 0) = wrapW (BitVec.ofNat 32 (s 0).val) 8#32 := by
  unfold refIdx
  rw [concatenate_apply_piece (4 : Fin S8x112x112x256x4.rank) _ _ (compIx s 0) 0 (by simp) S8x112x112x256x1 (slab batchComp) rfl rfl
    0 rfl (slabIx s) (slabIx_off s 0) rfl, slab_apply, batchComp_apply]

/-- The row component is the row word of the cell's index word. -/
theorem refIdx_comp1 (mk : IVec S8x112x112x256 32) (s : S8x112x112x256.Idx) :
    refIdx mk (compIx s 1) = rowW (mk s) := by
  unfold refIdx
  rw [concatenate_apply_piece (4 : Fin S8x112x112x256x4.rank) _ _ (compIx s 1) 1 (by simp) S8x112x112x256x1
    (slab (wrapNeg (rowOf mk) 224#32)) rfl rfl 1 rfl (slabIx s) (slabIx_off s 1) rfl, slab_apply, wrapNeg_apply, rowOf,
    floorDiv_apply]
  rfl

/-- The column component is the column word of the cell's index word. -/
theorem refIdx_comp2 (mk : IVec S8x112x112x256 32) (s : S8x112x112x256.Idx) :
    refIdx mk (compIx s 2) = colW (mk s) := by
  unfold refIdx
  rw [concatenate_apply_piece (4 : Fin S8x112x112x256x4.rank) _ _ (compIx s 2) 2 (by simp) S8x112x112x256x1
    (slab (wrapNeg (colOf mk) 224#32)) rfl rfl 2 rfl (slabIx s) (slabIx_off s 2) rfl, slab_apply, wrapNeg_apply, colOf,
    pyMod_apply, floorDiv_apply]
  rfl

/-- The channel component is the channel coordinate as a word. -/
theorem refIdx_comp3 (mk : IVec S8x112x112x256 32) (s : S8x112x112x256.Idx) :
    refIdx mk (compIx s 3) = wrapW (BitVec.ofNat 32 (s 3).val) 256#32 := by
  unfold refIdx
  rw [concatenate_apply_piece (4 : Fin S8x112x112x256x4.rank) _ _ (compIx s 3) 3 (by simp) S8x112x112x256x1 (slab chanComp) rfl rfl
    3 rfl (slabIx s) (slabIx_off s 3) rfl, slab_apply, chanComp_apply]

end Cert.ReferenceIdeal.UnpoolRef

end
-- ==== Proof.RefIsG.lean ====
/-
  The reference's result is `G`.

  Under the window property the four index components of cell s are (batch of s, 2 * row of s + rowBit, 2 * column of s +
  colBit, channel of s): the row component halves to the cell's row and the column component to its column, so at most
  the cell `srcOf o` lands at an output position o = (b, Y, X, c), and it does exactly when 2 (Y / 2) + rowBit = Y and
  2 (X / 2) + colBit = X, i.e. when its parities are those of Y and X. The operand is the zero array, and 0 + v = v.
-/
import proofs.«416945_j54709293416957_2_alg».proof.Proof.RefIdx
import proofs.«416945_j54709293416957_2_alg».proof.Proof.WordArith
import Idealize.ShloMosaic.PureOps.Ideal

noncomputable section

namespace Cert.ReferenceIdeal.UnpoolRef

open Cert.ReferenceIdeal Idealize.ShloMosaic Idealize.ShloMosaic.ValueIdx Cert.Unpool

variable [Cert.ReferenceIdeal.Facts]

/-- The reference's result is the unpooled array `G` when every index word points inside its own cell's window. -/
theorem refOut_eq_G (upd : FVec Ideal S8x112x112x256 .f32) (mk : IVec S8x112x112x256 32) (hok : MaskOk mk) :
    refOut (F := Ideal) upd mk = G upd mk := by
  funext o
  have hr := rowBit_lt (mk (srcOf o))
  have hc := colBit_lt (mk (srcOf o))
  have e1 : ((srcOf o) 1).val = (o 1).val / 2 := rfl
  have e2 : ((srcOf o) 2).val = (o 2).val / 2 := rfl
  -- the four components of every cell: batch, twice the row plus the row parity, twice the column plus the column
  -- parity, channel
  have hsingle := scatterAdd_single (zeros (F := Ideal)) (refIdx mk) upd
    (fun s => 2 * (s 1).val + rowBit (mk s)) (fun s => 2 * (s 2).val + colBit (mk s))
    (fun s => by
      rw [refIdx_comp0]
      exact wrapW_ofNat (by have : (s 0).val < 8 := (s 0).isLt; omega) _)
    (fun s => by
      rw [refIdx_comp1]
      exact rowW_toInt (s 1).isLt (s 2).isLt (hok s))
    (fun s => by
      rw [refIdx_comp2]
      exact colW_toInt (s 1).isLt (s 2).isLt (hok s))
    (fun s => by
      rw [refIdx_comp3]
      exact wrapW_ofNat (s 3).isLt _)
    (fun s => by have := rowBit_lt (mk s); omega) (fun s => by have := colBit_lt (mk s); omega) o
  -- the operand is the zero array
  have hz : zeros (F := Ideal) o = (0 : EReal) := by
    show Ideal.ofBits .f32 0x00000000#32 = 0
    exact Ideal.ofBits_zero_f32
  -- the landing condition says the cell's parities are the position's
  have hiff : (2 * ((srcOf o) 1).val + rowBit (mk (srcOf o)) = (o 1).val
        ∧ 2 * ((srcOf o) 2).val + colBit (mk (srcOf o)) = (o 2).val)
      ↔ (rowBit (mk (srcOf o)) = (o 1).val % 2 ∧ colBit (mk (srcOf o)) = (o 2).val % 2) := by
    rw [e1, e2]; omega
  unfold refOut
  rw [hsingle, hz, zero_add]
  unfold G
  exact if_congr hiff rfl rfl

end Cert.ReferenceIdeal.UnpoolRef

end
-- ==== Proof.lean ====
/-
  Max-unpooling over 2x2 windows with stride 2: the kernel against the accumulating-scatter reference, over the
  extended reals.

  Both programs take a pooled array [8, 112, 112, 256] and an array of flat argmax indices of the same shape, and return
  the unpooled array [8, 224, 224, 256]. Under the precondition — every pooled value finite, and every index word
  pointing inside its own cell's 2x2 window, as the argmax of a 2x2 / stride-2 max pooling does — both results are the
  one function `G` of the arguments (Proof/Spec.lean): an output position holds its cell's value when the cell's index
  word points at it, and zero otherwise.

  The kernel decodes from each index word only the two offset bits (row parity, column parity) and places the value by
  selects and a lane concatenation into a five-axis array [8, 112, 2, 112, 512] that a final row-major re-reading turns
  into the output (Proof/KernelPayload.lean, KernelArray.lean, KernelTail.lean). The reference decodes the full output
  row and column from each word and adds every value at its decoded position into a zero array (Proof/RefRun.lean,
  RefIdx.lean); under the window property at most one cell lands at each position, the cell whose window holds it
  (Proof/ScatterRead.lean, RefIsG.lean), so the sum is that one value or zero, and 0 + v = v on the extended reals: no
  finiteness is used. The word arithmetic on both sides is Proof/WordArith.lean; the precondition is read in
  Proof/PreDecode.lean. The idealization rewrote nothing, so `preserves` is trivial; the three frames are the generated
  frame proofs and the reference's run.
-/
import proofs.«416945_j54709293416957_2_alg».proof.Defs
import proofs.«416945_j54709293416957_2_alg».proof.Proof.Gen.Kernel
import proofs.«416945_j54709293416957_2_alg».proof.Proof.Gen.Kernel.Skeleton
import proofs.«416945_j54709293416957_2_alg».proof.Proof.Gen.Kernel.Launch
import proofs.«416945_j54709293416957_2_alg».proof.Proof.Gen.Kernel.Points
import proofs.«416945_j54709293416957_2_alg».proof.Proof.Gen.Kernel.Frame
import proofs.«416945_j54709293416957_2_alg».proof.Proof.Gen.KernelIdeal
import proofs.«416945_j54709293416957_2_alg».proof.Proof.Gen.KernelIdeal.Skeleton
import proofs.«416945_j54709293416957_2_alg».proof.Proof.Gen.KernelIdeal.Launch
import proofs.«416945_j54709293416957_2_alg».proof.Proof.Gen.KernelIdeal.Points
import proofs.«416945_j54709293416957_2_alg».proof.Proof.Gen.KernelIdeal.Frame
import proofs.«416945_j54709293416957_2_alg».proof.Proof.Gen.ReferenceIdeal
import proofs.«416945_j54709293416957_2_alg».proof.Proof.Gen.Pre_finite_inputs
import proofs.«416945_j54709293416957_2_alg».proof.Proof.PreDecode
import proofs.«416945_j54709293416957_2_alg».proof.Proof.KernelTail
import proofs.«416945_j54709293416957_2_alg».proof.Proof.RefRun
import proofs.«416945_j54709293416957_2_alg».proof.Proof.RefIsG
import Idealize.ShloMosaic.Adequacy
import Idealize.ShloMosaic.Init

noncomputable section

namespace Cert.Proof

open Idealize.ShloMosaic Idealize.SL.Sem

/-- The word-level kernel runs and leaves its arguments unchanged: the generated frame. -/
theorem frame_k : Cert.frame_Kernel := fun m ρ _ => Cert.Kernel.Gen.frame m ρ

/-- The idealized kernel runs and leaves its arguments unchanged: the generated frame. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.UnpoolRef.run (F := Ideal) m ρ)

/-- From memories agreeing on the arguments both programs end with the unpooled array `G` of the arguments: the
    precondition gives the window property of the index array, under which the kernel's array is `G` and the
    reference's accumulating scatter is `G`. -/
theorem algebraic : Cert.algebraic_KernelIdeal_ReferenceIdeal := by
  intro m ρ m' ρ' hpre hagree
  have hok : ∀ c : Dev Cert.KernelIdeal.nD, Cert.Unpool.MaskOk
      (m ((c.tc : Thread Cert.KernelIdeal.nD Cert.KernelIdeal.τ).loc Cert.KernelIdeal.main_arg1)) :=
    fun c => Cert.Unpool.maskOk_of_pre _ _ (hpre c)
  refine ⟨fun c => Cert.Unpool.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.UnpoolValue.run m ρ hok, ?_⟩
  refine (θ_run Cert.ReferenceIdeal.defs _ _).mono (fun _ h c => ⟨(h c).1.trans ?_, (h c).2⟩)
    (Cert.ReferenceIdeal.UnpoolRef.run (F := Ideal) m' ρ')
  rw [(hagree c).1, (hagree c).2]
  exact Cert.ReferenceIdeal.UnpoolRef.refOut_eq_G _ _ (hok c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
